-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x2 : Shape := ⟨3, ![64, 2048, 2]⟩
abbrev S64x2 : Shape := ⟨2, ![64, 2]⟩
abbrev S64x2x256 : Shape := ⟨3, ![64, 2, 256]⟩
abbrev S64x256 : Shape := ⟨2, ![64, 256]⟩
abbrev S64x256x256 : Shape := ⟨3, ![64, 256, 256]⟩
abbrev S64x256x4 : Shape := ⟨3, ![64, 256, 4]⟩
abbrev S64x4 : Shape := ⟨2, ![64, 4]⟩
abbrev S_ : Shape := ⟨0, ![]⟩

class Facts : Prop where
  bcast_S_S64x2048x2 : S_.BroadcastsInDim S64x2048x2 (![] : Fin 0 → Fin S64x2048x2.rank)
  reducesTo_S64x2048x2_S_d0_1_2 : S64x2048x2.ReducesTo [0, 1, 2] S_
  h_S_ : 0 < S_.numel
  bcast_S_S64x2 : S_.BroadcastsInDim S64x2 (![] : Fin 0 → Fin S64x2.rank)
  reducesTo_S64x2_S_d0_1 : S64x2.ReducesTo [0, 1] S_
  bcast_S_S64x2x256 : S_.BroadcastsInDim S64x2x256 (![] : Fin 0 → Fin S64x2x256.rank)
  reducesTo_S64x2x256_S_d0_1_2 : S64x2x256.ReducesTo [0, 1, 2] S_
  bcast_S_S64x256 : S_.BroadcastsInDim S64x256 (![] : Fin 0 → Fin S64x256.rank)
  reducesTo_S64x256_S_d0_1 : S64x256.ReducesTo [0, 1] S_
  bcast_S_S64x256x256 : S_.BroadcastsInDim S64x256x256 (![] : Fin 0 → Fin S64x256x256.rank)
  reducesTo_S64x256x256_S_d0_1_2 : S64x256x256.ReducesTo [0, 1, 2] S_
  bcast_S_S64x256x4 : S_.BroadcastsInDim S64x256x4 (![] : Fin 0 → Fin S64x256x4.rank)
  reducesTo_S64x256x4_S_d0_1_2 : S64x256x4.ReducesTo [0, 1, 2] S_
  bcast_S_S64x4 : S_.BroadcastsInDim S64x4 (![] : Fin 0 → Fin S64x4.rank)
  reducesTo_S64x4_S_d0_1 : S64x4.ReducesTo [0, 1] S_

variable [Facts]

def fn_part2 {F : FTy → Type} [FloatOps F] (main_arg7 : FVec F S64x256x4 .f32) (main_arg8 : FVec F S64x4 .f32) (main_v33 : IVec S_ 1) : IVec S_ 1 :=
  let main_v34 : FVec F S64x256x4 .f32 := Host.absf main_arg7
  let main_cst_12 : FVec F S_ .f32 := constant S_ .f32 0x7F800000#32
  let main_v35 : FVec F S64x256x4 .f32 := broadcastInDim S64x256x4 ![] bcast_S_S64x256x4 main_cst_12
  let main_v36 : IVec S64x256x4 1 := cmpf .olt main_v34 main_v35
  let main_c_13 : IVec S_ 1 := constantI S_ 1 1#1
  let main_v37 : IVec S_ 1 := (fun x v => Host.reduce IntOp.andi x v reducesTo_S64x256x4_S_d0_1_2 h_S_) main_v36 main_c_13
  let main_v38 : IVec S_ 1 := andi main_v33 main_v37
  let main_v39 : FVec F S64x4 .f32 := Host.absf main_arg8
  let main_cst_14 : FVec F S_ .f32 := constant S_ .f32 0x7F800000#32
  let main_v40 : FVec F S64x4 .f32 := broadcastInDim S64x4 ![] bcast_S_S64x4 main_cst_14
  let main_v41 : IVec S64x4 1 := cmpf .olt main_v39 main_v40
  let main_c_15 : IVec S_ 1 := constantI S_ 1 1#1
  let main_v42 : IVec S_ 1 := (fun x v => Host.reduce IntOp.andi x v reducesTo_S64x4_S_d0_1 h_S_) main_v41 main_c_15
  let main_v43 : IVec S_ 1 := andi main_v38 main_v42
  main_v43

def fn_part1 {F : FTy → Type} [FloatOps F] (main_arg4 : FVec F S64x256 .f32) (main_arg5 : FVec F S64x256x256 .f32) (main_arg6 : FVec F S64x256 .f32) (main_arg7 : FVec F S64x256x4 .f32) (main_arg8 : FVec F S64x4 .f32) (main_v13 : IVec S_ 1) (main_v16 : IVec S64x2x256 1) : IVec S_ 1 :=
  let main_c_5 : IVec S_ 1 := constantI S_ 1 1#1
  let main_v17 : IVec S_ 1 := (fun x v => Host.reduce IntOp.andi x v reducesTo_S64x2x256_S_d0_1_2 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256x256 .f32 := Host.absf main_arg5
  let main_cst_8 : FVec F S_ .f32 := constant S_ .f32 0x7F800000#32
  let main_v25 : FVec F S64x256x256 .f32 := broadcastInDim S64x256x256 ![] bcast_S_S64x256x256 main_cst_8
  let main_v26 : IVec S64x256x256 1 := cmpf .olt main_v24 main_v25
  let main_c_9 : IVec S_ 1 := constantI S_ 1 1#1
  let main_v27 : IVec S_ 1 := (fun x v => Host.reduce IntOp.andi x v reducesTo_S64x256x256_S_d0_1_2 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_v33

def fn {F : FTy → Type} [FloatOps F] (main_arg0 : FVec F S64x2048x2 .f32) (main_arg1 : FVec F S64x2 .f32) (main_arg2 : FVec F S64x2 .f32) (main_arg3 : FVec F S64x2x256 .f32) (main_arg4 : FVec F S64x256 .f32) (main_arg5 : FVec F S64x256x256 .f32) (main_arg6 : FVec F S64x256 .f32) (main_arg7 : FVec F S64x256x4 .f32) (main_arg8 : FVec F S64x4 .f32) : IVec S_ 1 :=
  let main_v0 : FVec F S64x2048x2 .f32 := Host.absf main_arg0
  let main_cst : FVec F S_ .f32 := constant S_ .f32 0x7F800000#32
  let main_v1 : FVec F S64x2048x2 .f32 := broadcastInDim S64x2048x2 ![] bcast_S_S64x2048x2 main_cst
  let main_v2 : IVec S64x2048x2 1 := cmpf .olt main_v0 main_v1
  let main_c : IVec S_ 1 := constantI S_ 1 1#1
  let main_v3 : IVec S_ 1 := (fun x v => Host.reduce IntOp.andi x v reducesTo_S64x2048x2_S_d0_1_2 h_S_) main_v2 main_c
  let main_v4 : FVec F S64x2 .f32 := Host.absf main_arg1
  let main_cst_0 : FVec F S_ .f32 := constant S_ .f32 0x7F800000#32
  let main_v5 : FVec F S64x2 .f32 := broadcastInDim S64x2 ![] bcast_S_S64x2 main_cst_0
  let main_v6 : IVec S64x2 1 := cmpf .olt main_v4 main_v5
  let main_c_1 : IVec S_ 1 := constantI S_ 1 1#1
  let main_v7 : IVec S_ 1 := (fun x v => Host.reduce IntOp.andi x v reducesTo_S64x2_S_d0_1 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  let main_v14 : FVec F S64x2x256 .f32 := Host.absf main_arg3
  let main_cst_4 : FVec F S_ .f32 := constant S_ .f32 0x7F800000#32
  let main_v15 : FVec F S64x2x256 .f32 := broadcastInDim S64x2x256 ![] bcast_S_S64x2x256 main_cst_4
  let main_v16 : IVec S64x2x256 1 := cmpf .olt main_v14 main_v15
  fn_part1 (F := F) main_arg4 main_arg5 main_arg6 main_arg7 main_arg8 main_v13 main_v16
-- ==== Kernel.lean ====
abbrev S64x2048x2 : Shape := ⟨3, ![64, 2048, 2]⟩
abbrev S64x2 : Shape := ⟨2, ![64, 2]⟩
abbrev S64x2x256 : Shape := ⟨3, ![64, 2, 256]⟩
abbrev S64x256 : Shape := ⟨2, ![64, 256]⟩
abbrev S64x256x256 : Shape := ⟨3, ![64, 256, 256]⟩
abbrev S64x256x4 : Shape := ⟨3, ![64, 256, 4]⟩
abbrev S64x4 : Shape := ⟨2, ![64, 4]⟩
abbrev S64x1x4 : Shape := ⟨3, ![64, 1, 4]⟩
abbrev S64x1x256 : Shape := ⟨3, ![64, 1, 256]⟩
abbrev S64x2048x4 : Shape := ⟨3, ![64, 2048, 4]⟩
abbrev S1x2048x2 : Shape := ⟨3, ![1, 2048, 2]⟩
abbrev S1x1x4 : Shape := ⟨3, ![1, 1, 4]⟩
abbrev S1x2x256 : Shape := ⟨3, ![1, 2, 256]⟩
abbrev S1x1x256 : Shape := ⟨3, ![1, 1, 256]⟩
abbrev S1x256x256 : Shape := ⟨3, ![1, 256, 256]⟩
abbrev S1x256x4 : Shape := ⟨3, ![1, 256, 4]⟩
abbrev S1x2048x4 : Shape := ⟨3, ![1, 2048, 4]⟩
abbrev S2048x2 : Shape := ⟨2, ![2048, 2]⟩
abbrev S1x4 : Shape := ⟨2, ![1, 4]⟩
abbrev S2048x1 : Shape := ⟨2, ![2048, 1]⟩
abbrev S1x1 : Shape := ⟨2, ![1, 1]⟩
abbrev S2x256 : Shape := ⟨2, ![2, 256]⟩
abbrev S2048x256 : Shape := ⟨2, ![2048, 256]⟩
abbrev S1x256 : Shape := ⟨2, ![1, 256]⟩
abbrev S256x256 : Shape := ⟨2, ![256, 256]⟩
abbrev S256x4 : Shape := ⟨2, ![256, 4]⟩
abbrev S2048x4 : Shape := ⟨2, ![2048, 4]⟩

abbrev nBuf : Space → Nat
  | .hbm => 15
  | .vmem => 18
  | .smem => 0
  | _ => 0

abbrev bufTy : (tb : Table) → Fin (tcTables nBuf tb) → BufTy
  | .hbm, ⟨0, _⟩ => ⟨S64x2048x2, .f32⟩
  | .hbm, ⟨1, _⟩ => ⟨S64x2, .f32⟩
  | .hbm, ⟨2, _⟩ => ⟨S64x2, .f32⟩
  | .hbm, ⟨3, _⟩ => ⟨S64x2x256, .f32⟩
  | .hbm, ⟨4, _⟩ => ⟨S64x256, .f32⟩
  | .hbm, ⟨5, _⟩ => ⟨S64x256x256, .f32⟩
  | .hbm, ⟨6, _⟩ => ⟨S64x256, .f32⟩
  | .hbm, ⟨7, _⟩ => ⟨S64x256x4, .f32⟩
  | .hbm, ⟨8, _⟩ => ⟨S64x4, .f32⟩
  | .hbm, ⟨9, _⟩ => ⟨S64x4, .f32⟩
  | .hbm, ⟨10, _⟩ => ⟨S64x1x4, .f32⟩
  | .hbm, ⟨11, _⟩ => ⟨S64x1x256, .f32⟩
  | .hbm, ⟨12, _⟩ => ⟨S64x1x256, .f32⟩
  | .hbm, ⟨13, _⟩ => ⟨S64x1x4, .f32⟩
  | .hbm, ⟨14, _⟩ => ⟨S64x2048x4, .f32⟩
  | .local _ .vmem, ⟨0, _⟩ => ⟨S1x2048x2, .f32⟩
  | .local _ .vmem, ⟨1, _⟩ => ⟨S1x2048x2, .f32⟩
  | .local _ .vmem, ⟨2, _⟩ => ⟨S1x1x4, .f32⟩
  | .local _ .vmem, ⟨3, _⟩ => ⟨S1x1x4, .f32⟩
  | .local _ .vmem, ⟨4, _⟩ => ⟨S1x2x256, .f32⟩
  | .local _ .vmem, ⟨5, _⟩ => ⟨S1x2x256, .f32⟩
  | .local _ .vmem, ⟨6, _⟩ => ⟨S1x1x256, .f32⟩
  | .local _ .vmem, ⟨7, _⟩ => ⟨S1x1x256, .f32⟩
  | .local _ .vmem, ⟨8, _⟩ => ⟨S1x256x256, .f32⟩
  | .local _ .vmem, ⟨9, _⟩ => ⟨S1x256x256, .f32⟩
  | .local _ .vmem, ⟨10, _⟩ => ⟨S1x1x256, .f32⟩
  | .local _ .vmem, ⟨11, _⟩ => ⟨S1x1x256, .f32⟩
  | .local _ .vmem, ⟨12, _⟩ => ⟨S1x256x4, .f32⟩
  | .local _ .vmem, ⟨13, _⟩ => ⟨S1x256x4, .f32⟩
  | .local _ .vmem, ⟨14, _⟩ => ⟨S1x1x4, .f32⟩
  | .local _ .vmem, ⟨15, _⟩ => ⟨S1x1x4, .f32⟩
  | .local _ .vmem, ⟨16, _⟩ => ⟨S1x2048x4, .f32⟩
  | .local _ .vmem, ⟨17, _⟩ => ⟨S1x2048x4, .f32⟩
  | _, _ => ⟨S64x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S64x2_S64x2_S64x4_d1 : Shape.Concatenates [S64x2, S64x2] S64x4 1
  shapeCasts_S64x4_S64x1x4 : S64x4.ShapeCasts S64x1x4
  shapeCasts_S64x256_S64x1x256 : S64x256.ShapeCasts S64x1x256
  inb_S1x2048x2_S1x2048x2_0_0_0 : ∀ a, (![0, 0, 0] : Fin 3 → Nat) a + S1x2048x2.size a ≤ S1x2048x2.size a
  h_S1x2048x2 : 0 < S1x2048x2.numel
  shapeCasts_S1x2048x2_S2048x2 : S1x2048x2.ShapeCasts S2048x2
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  slices_S2048x2_o0_0_S2048x1 : S2048x2.Slices ![0, 0] S2048x1
  slices_S1x4_o0_0_S1x1 : S1x4.Slices ![0, 0] S1x1
  broadcasts_S1x1_S2048x1 : S1x1.Broadcasts S2048x1
  slices_S2048x2_o0_1_S2048x1 : S2048x2.Slices ![0, 1] S2048x1
  slices_S1x4_o0_1_S1x1 : S1x4.Slices ![0, 1] S1x1
  slices_S1x4_o0_2_S1x1 : S1x4.Slices ![0, 2] S1x1
  slices_S1x4_o0_3_S1x1 : S1x4.Slices ![0, 3] S1x1
  concatenates_S2048x1_S2048x1_S2048x2_d1 : Shape.Concatenates [S2048x1, S2048x1] S2048x2 1
  inb_S1x2x256_S1x2x256_0_0_0 : ∀ a, (![0, 0, 0] : Fin 3 → Nat) a + S1x2x256.size a ≤ S1x2x256.size a
  h_S1x2x256 : 0 < S1x2x256.numel
  shapeCasts_S1x2x256_S2x256 : S1x2x256.ShapeCasts S2x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x4_S1x256x4_0_0_0 : ∀ a, (![0, 0, 0] : Fin 3 → Nat) a + S1x256x4.size a ≤ S1x256x4.size a
  h_S1x256x4 : 0 < S1x256x4.numel
  shapeCasts_S1x256x4_S256x4 : S1x256x4.ShapeCasts S256x4
  broadcasts_S1x4_S2048x4 : S1x4.Broadcasts S2048x4
  inb_S1x2048x4_S1x2048x4_0_0_0 : ∀ a, (![0, 0, 0] : Fin 3 → Nat) a + S1x2048x4.size a ≤ S1x2048x4.size a
  h_S1x2048x4 : 0 < S1x2048x4.numel
  shapeCasts_S1x2048x4_S2048x4 : S1x2048x4.ShapeCasts S2048x4
  shapeCasts_S2048x4_S1x2048x4 : S2048x4.ShapeCasts S1x2048x4
  dot_S2048x2_S2x256_S2048x256_1_0_0_1_n_n_wf : DotDims.WF S2048x2 S2x256 S2048x256 [1] [0] [0] [1] [] []
  dot_S2048x256_S256x256_S2048x256_1_0_0_1_n_n_wf : DotDims.WF S2048x256 S256x256 S2048x256 [1] [0] [0] [1] [] []
  dot_S2048x256_S256x4_S2048x4_1_0_0_1_n_n_wf : DotDims.WF S2048x256 S256x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2.size a ≤ S64x2048x2.size a
  hwx0_0 : ∀ i : grid0.Coords, EltTy.bits .f32 = 32 ∨ (Rect.block (s := S64x2048x2) S1x2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4.size a ≤ S64x1x4.size a
  hwx0_1 : ∀ i : grid0.Coords, EltTy.bits .f32 = 32 ∨ (Rect.block (s := S64x1x4) S1x1x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x256.size a ≤ S64x2x256.size a
  hwx0_2 : ∀ i : grid0.Coords, EltTy.bits .f32 = 32 ∨ (Rect.block (s := S64x2x256) S1x2x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S64x1x256.size a
  hwx0_3 : ∀ i : grid0.Coords, EltTy.bits .f32 = 32 ∨ (Rect.block (s := S64x1x256) S1x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S64x256x256.size a
  hwx0_4 : ∀ i : grid0.Coords, EltTy.bits .f32 = 32 ∨ (Rect.block (s := S64x256x256) S1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256.size a ≤ S64x1x256.size a
  hwx0_5 : ∀ i : grid0.Coords, EltTy.bits .f32 = 32 ∨ (Rect.block (s := S64x1x256) S1x1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x4.size a ≤ S64x256x4.size a
  hwx0_6 : ∀ i : grid0.Coords, EltTy.bits .f32 = 32 ∨ (Rect.block (s := S64x256x4) S1x256x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x4.size a ≤ S64x1x4.size a
  hwx0_7 : ∀ i : grid0.Coords, EltTy.bits .f32 = 32 ∨ (Rect.block (s := S64x1x4) S1x1x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x4.size a ≤ S64x2048x4.size a
  hwx0_8 : ∀ i : grid0.Coords, EltTy.bits .f32 = 32 ∨ (Rect.block (s := S64x2048x4) S1x2048x4.size (cc0_transform_8 i) (hinb0_8 i)).WholeWords (EltTy.packing .f32)

variable [Facts₀]

def dot_S2048x2_S2x256_S2048x256_1_0_0_1_n_n : DotDims S2048x2 S2x256 S2048x256 where
  lhsContracting := [1]
  rhsContracting := [0]
  lhsNonContracting := [0]
  rhsNonContracting := [1]
  lhsBatch := []
  rhsBatch := []
  wf := dot_S2048x2_S2x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x4_S2048x4_1_0_0_1_n_n : DotDims S2048x256 S256x4 S2048x4 where
  lhsContracting := [1]
  rhsContracting := [0]
  lhsNonContracting := [0]
  rhsNonContracting := [1]
  lhsBatch := []
  rhsBatch := []
  wf := dot_S2048x256_S256x4_S2048x4_1_0_0_1_n_n_wf

abbrev win0_0 : Pipeline.Window sig grid0 :=
  Pipeline.Window.ofSpec (Memref.whole main_arg0) S1x2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x2x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x256x4.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1x4.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x2048x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S64x2048x2 : Shape := ⟨3, ![64, 2048, 2]⟩
abbrev S64x2 : Shape := ⟨2, ![64, 2]⟩
abbrev S64x2x256 : Shape := ⟨3, ![64, 2, 256]⟩
abbrev S64x256 : Shape := ⟨2, ![64, 256]⟩
abbrev S64x256x256 : Shape := ⟨3, ![64, 256, 256]⟩
abbrev S64x256x4 : Shape := ⟨3, ![64, 256, 4]⟩
abbrev S64x4 : Shape := ⟨2, ![64, 4]⟩
abbrev S2 : Shape := ⟨1, ![2]⟩
abbrev S64x1x2 : Shape := ⟨3, ![64, 1, 2]⟩
abbrev S1x2 : Shape := ⟨2, ![1, 2]⟩
abbrev S64x1x1 : Shape := ⟨3, ![64, 1, 1]⟩
abbrev S64x1 : Shape := ⟨2, ![64, 1]⟩
abbrev S64x2048x1 : Shape := ⟨3, ![64, 2048, 1]⟩
abbrev S64x2048 : Shape := ⟨2, ![64, 2048]⟩
abbrev S_ : Shape := ⟨0, ![]⟩
abbrev S64x2048x256 : Shape := ⟨3, ![64, 2048, 256]⟩
abbrev S64x1x256 : Shape := ⟨3, ![64, 1, 256]⟩
abbrev S64x2048x4 : Shape := ⟨3, ![64, 2048, 4]⟩
abbrev S64x1x4 : Shape := ⟨3, ![64, 1, 4]⟩

abbrev nBuf : Space → Nat
  | .hbm => 59
  | .vmem => 0
  | .smem => 0
  | _ => 0

abbrev bufTy : (tb : Table) → Fin (tcTables nBuf tb) → BufTy
  | .hbm, ⟨0, _⟩ => ⟨S64x2048x2, .f32⟩
  | .hbm, ⟨1, _⟩ => ⟨S64x2, .f32⟩
  | .hbm, ⟨2, _⟩ => ⟨S64x2, .f32⟩
  | .hbm, ⟨3, _⟩ => ⟨S64x2x256, .f32⟩
  | .hbm, ⟨4, _⟩ => ⟨S64x256, .f32⟩
  | .hbm, ⟨5, _⟩ => ⟨S64x256x256, .f32⟩
  | .hbm, ⟨6, _⟩ => ⟨S64x256, .f32⟩
  | .hbm, ⟨7, _⟩ => ⟨S64x256x4, .f32⟩
  | .hbm, ⟨8, _⟩ => ⟨S64x4, .f32⟩
  | .hbm, ⟨9, _⟩ => ⟨S2, .f32⟩
  | .hbm, ⟨10, _⟩ => ⟨S64x1x2, .f32⟩
  | .hbm, ⟨11, _⟩ => ⟨S64x2048x2, .f32⟩
  | .hbm, ⟨12, _⟩ => ⟨S64x2048x2, .f32⟩
  | .hbm, ⟨13, _⟩ => ⟨S1x2, .f32⟩
  | .hbm, ⟨14, _⟩ => ⟨S64x2, .f32⟩
  | .hbm, ⟨15, _⟩ => ⟨S64x2, .f32⟩
  | .hbm, ⟨16, _⟩ => ⟨S64x1x2, .f32⟩
  | .hbm, ⟨17, _⟩ => ⟨S64x1x1, .f32⟩
  | .hbm, ⟨18, _⟩ => ⟨S64x1, .f32⟩
  | .hbm, ⟨19, _⟩ => ⟨S64x1x1, .f32⟩
  | .hbm, ⟨20, _⟩ => ⟨S64x1, .f32⟩
  | .hbm, ⟨21, _⟩ => ⟨S64x2048x1, .f32⟩
  | .hbm, ⟨22, _⟩ => ⟨S64x2048, .f32⟩
  | .hbm, ⟨23, _⟩ => ⟨S64x2048x1, .f32⟩
  | .hbm, ⟨24, _⟩ => ⟨S64x2048, .f32⟩
  | .hbm, ⟨25, _⟩ => ⟨S64x2048, .f32⟩
  | .hbm, ⟨26, _⟩ => ⟨S64x2048, .f32⟩
  | .hbm, ⟨27, _⟩ => ⟨S64x2048, .f32⟩
  | .hbm, ⟨28, _⟩ => ⟨S64x2048, .f32⟩
  | .hbm, ⟨29, _⟩ => ⟨S64x2048, .f32⟩
  | .hbm, ⟨30, _⟩ => ⟨S64x2048, .f32⟩
  | .hbm, ⟨31, _⟩ => ⟨S64x2048, .f32⟩
  | .hbm, ⟨32, _⟩ => ⟨S64x2048, .f32⟩
  | .hbm, ⟨33, _⟩ => ⟨S64x2048, .f32⟩
  | .hbm, ⟨34, _⟩ => ⟨S64x2048, .f32⟩
  | .hbm, ⟨35, _⟩ => ⟨S64x2048x1, .f32⟩
  | .hbm, ⟨36, _⟩ => ⟨S64x2048x1, .f32⟩
  | .hbm, ⟨37, _⟩ => ⟨S64x2048x2, .f32⟩
  | .hbm, ⟨38, _⟩ => ⟨S_, .f32⟩
  | .hbm, ⟨39, _⟩ => ⟨S64x2048x2, .f32⟩
  | .hbm, ⟨40, _⟩ => ⟨S64x2048x2, .f32⟩
  | .hbm, ⟨41, _⟩ => ⟨S64x2048x256, .f32⟩
  | .hbm, ⟨42, _⟩ => ⟨S64x1x256, .f32⟩
  | .hbm, ⟨43, _⟩ => ⟨S64x2048x256, .f32⟩
  | .hbm, ⟨44, _⟩ => ⟨S64x2048x256, .f32⟩
  | .hbm, ⟨45, _⟩ => ⟨S_, .f32⟩
  | .hbm, ⟨46, _⟩ => ⟨S64x2048x256, .f32⟩
  | .hbm, ⟨47, _⟩ => ⟨S64x2048x256, .f32⟩
  | .hbm, ⟨48, _⟩ => ⟨S64x2048x256, .f32⟩
  | .hbm, ⟨49, _⟩ => ⟨S64x1x256, .f32⟩
  | .hbm, ⟨50, _⟩ => ⟨S64x2048x256, .f32⟩
  | .hbm, ⟨51, _⟩ => ⟨S64x2048x256, .f32⟩
  | .hbm, ⟨52, _⟩ => ⟨S_, .f32⟩
  | .hbm, ⟨53, _⟩ => ⟨S64x2048x256, .f32⟩
  | .hbm, ⟨54, _⟩ => ⟨S64x2048x256, .f32⟩
  | .hbm, ⟨55, _⟩ => ⟨S64x2048x4, .f32⟩
  | .hbm, ⟨56, _⟩ => ⟨S64x1x4, .f32⟩
  | .hbm, ⟨57, _⟩ => ⟨S64x2048x4, .f32⟩
  | .hbm, ⟨58, _⟩ => ⟨S64x2048x4, .f32⟩
  | _, _ => ⟨S64x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  bcast_S64x2_S64x1x2_0_2 : S64x2.BroadcastsInDim S64x1x2 (![0, 2] : Fin 2 → Fin S64x1x2.rank)
  bcast_S64x1x2_S64x2048x2_0_1_2 : S64x1x2.BroadcastsInDim S64x2048x2 (![0, 1, 2] : Fin 3 → Fin S64x2048x2.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  slices_S64x1x2_S64x1x1_0_0_0 : S64x1x2.Slices ![0, 0, 0] S64x1x1
  shapeCasts_S64x1x1_S64x1 : S64x1x1.ShapeCasts S64x1
  slices_S64x1x2_S64x1x1_0_0_1 : S64x1x2.Slices ![0, 0, 1] S64x1x1
  slices_S64x2048x2_S64x2048x1_0_0_0 : S64x2048x2.Slices ![0, 0, 0] S64x2048x1
  shapeCasts_S64x2048x1_S64x2048 : S64x2048x1.ShapeCasts S64x2048
  slices_S64x2048x2_S64x2048x1_0_0_1 : S64x2048x2.Slices ![0, 0, 1] S64x2048x1
  bcast_S64x1_S64x2048_0_1 : S64x1.BroadcastsInDim S64x2048 (![0, 1] : Fin 2 → Fin S64x2048.rank)
  bcast_S64x2048_S64x2048x1_0_1 : S64x2048.BroadcastsInDim S64x2048x1 (![0, 1] : Fin 2 → Fin S64x2048x1.rank)
  concatenates_S64x2048x1_S64x2048x1_S64x2048x2_d2 : Shape.Concatenates [S64x2048x1, S64x2048x1] S64x2048x2 2
  bcast_S_S64x2048x2 : S_.BroadcastsInDim S64x2048x2 (![] : Fin 0 → Fin S64x2048x2.rank)
  bcast_S64x256_S64x1x256_0_2 : S64x256.BroadcastsInDim S64x1x256 (![0, 2] : Fin 2 → Fin S64x1x256.rank)
  bcast_S64x1x256_S64x2048x256_0_1_2 : S64x1x256.BroadcastsInDim S64x2048x256 (![0, 1, 2] : Fin 3 → Fin S64x2048x256.rank)
  bcast_S_S64x2048x256 : S_.BroadcastsInDim S64x2048x256 (![] : Fin 0 → Fin S64x2048x256.rank)
  bcast_S64x4_S64x1x4_0_2 : S64x4.BroadcastsInDim S64x1x4 (![0, 2] : Fin 2 → Fin S64x1x4.rank)
  bcast_S64x1x4_S64x2048x4_0_1_2 : S64x1x4.BroadcastsInDim S64x2048x4 (![0, 1, 2] : Fin 3 → Fin S64x2048x4.rank)
  dot_S64x2048x2_S64x2x256_S64x2048x256_2_1_1_2_0_0_wf : DotDims.WF S64x2048x2 S64x2x256 S64x2048x256 [2] [1] [1] [2] [0] [0]
  dot_S64x2048x256_S64x256x256_S64x2048x256_2_1_1_2_0_0_wf : DotDims.WF S64x2048x256 S64x256x256 S64x2048x256 [2] [1] [1] [2] [0] [0]
  dot_S64x2048x256_S64x256x4_S64x2048x4_2_1_1_2_0_0_wf : DotDims.WF S64x2048x256 S64x256x4 S64x2048x4 [2] [1] [1] [2] [0] [0]

variable [Facts₀]

def dot_S64x2048x2_S64x2x256_S64x2048x256_2_1_1_2_0_0 : DotDims S64x2048x2 S64x2x256 S64x2048x256 where
  lhsContracting := [2]
  rhsContracting := [1]
  lhsNonContracting := [1]
  rhsNonContracting := [2]
  lhsBatch := [0]
  rhsBatch := [0]
  wf := dot_S64x2048x2_S64x2x256_S64x2048x256_2_1_1_2_0_0_wf
def dot_S64x2048x256_S64x256x256_S64x2048x256_2_1_1_2_0_0 : DotDims S64x2048x256 S64x256x256 S64x2048x256 where
  lhsContracting := [2]
  rhsContracting := [1]
  lhsNonContracting := [1]
  rhsNonContracting := [2]
  lhsBatch := [0]
  rhsBatch := [0]
  wf := dot_S64x2048x256_S64x256x256_S64x2048x256_2_1_1_2_0_0_wf
def dot_S64x2048x256_S64x256x4_S64x2048x4_2_1_1_2_0_0 : DotDims S64x2048x256 S64x256x4 S64x2048x4 where
  lhsContracting := [2]
  rhsContracting := [1]
  lhsNonContracting := [1]
  rhsNonContracting := [2]
  lhsBatch := [0]
  rhsBatch := [0]
  wf := dot_S64x2048x256_S64x256x4_S64x2048x4_2_1_1_2_0_0_wf

class Facts : Prop extends Facts₀ where

variable [Facts]
-- ==== Proof.FieldSpec.lean ====
/-
  A set of 64 posed neural fields, read one output entry at a time on the extended reals.

  Field e owns a position (px, py), an orientation (cr, ci) read as the complex number cr + i·ci, and a perceptron
  2 → 256 → 256 → 4. A query point (x, y) of field e is first taken to the field's own frame: with dx = x − px and
  dy = y − py it becomes conj(cr + i·ci) · (dx + i·dy) = (cr·dx + ci·dy) + i·(cr·dy − ci·dx). The two coordinates then go
  through the three affine layers, a maximum with zero after the first two.

  `fieldOut` is that function for ONE field, over the field's own rows; `fieldSet` reads it off the nine stacked arrays at
  an index (e, p, j). The second half of the file is the algebra that relates the other ways of writing the change of
  frame: the conjugate written as a product with (1, −1), and the complex product written with its terms in another
  order. Every identity used holds for all extended reals (negation distributes over a product, and x − (−y) = x + y),
  so no entry is assumed finite.
-/
import Idealize.ShloMosaic.PureOps.Ideal
import Idealize.ShloMosaic.PureOps.Ideal.Laws
import Idealize.ShloMosaic.Lib.ValueIdx

noncomputable section

open scoped BigOperators

namespace Cert.FieldNet

open Idealize.ShloMosaic Idealize.ShloMosaic.ValueIdx

/-! ## One field -/

section OneField

variable (qe : Fin 2048 → Fin 2 → EReal) (pe oe : Fin 2 → EReal)
  (w0 : Fin 2 → Fin 256 → EReal) (c0 : Fin 256 → EReal)
  (w1 : Fin 256 → Fin 256 → EReal) (c1 : Fin 256 → EReal)
  (w2 : Fin 256 → Fin 4 → EReal) (c2 : Fin 4 → EReal)

/-- The real part of conj(o) · (q − p). -/
def localX (p : Fin 2048) : EReal := oe 0 * (qe p 0 - pe 0) + oe 1 * (qe p 1 - pe 1)

/-- The imaginary part of conj(o) · (q − p). -/
def localY (p : Fin 2048) : EReal := oe 0 * (qe p 1 - pe 1) - oe 1 * (qe p 0 - pe 0)

/-- The point in the field's frame, as a pair indexed by `Fin 2`. -/
def localPt (p : Fin 2048) (k : Fin 2) : EReal := if k.val = 0 then localX qe pe oe p else localY qe pe oe p

/-- First layer: 2 → 256, then the maximum with zero. -/
def hidden1 (p : Fin 2048) (j : Fin 256) : EReal := max (∑ k : Fin 2, localPt qe pe oe p k * w0 k j + c0 j) 0

/-- Second layer: 256 → 256, then the maximum with zero. -/
def hidden2 (p : Fin 2048) (j : Fin 256) : EReal := max (∑ k : Fin 256, hidden1 qe pe oe w0 c0 p k * w1 k j + c1 j) 0

/-- Third layer: 256 → 4. -/
def fieldOut (p : Fin 2048) (j : Fin 4) : EReal := ∑ k : Fin 256, hidden2 qe pe oe w0 c0 w1 c1 p k * w2 k j + c2 j

end OneField

/-! ## The set of fields over the stacked arrays -/

section Stacked

variable (q : (⟨3, ![64, 2048, 2]⟩ : Shape).Idx → EReal) (pos ori : (⟨2, ![64, 2]⟩ : Shape).Idx → EReal)
  (W0 : (⟨3, ![64, 2, 256]⟩ : Shape).Idx → EReal) (b0 : (⟨2, ![64, 256]⟩ : Shape).Idx → EReal)
  (W1 : (⟨3, ![64, 256, 256]⟩ : Shape).Idx → EReal) (b1 : (⟨2, ![64, 256]⟩ : Shape).Idx → EReal)
  (W2 : (⟨3, ![64, 256, 4]⟩ : Shape).Idx → EReal) (b2 : (⟨2, ![64, 4]⟩ : Shape).Idx → EReal)

/-- Field `e` of the stacked arrays at point `p`, output `j`. -/
def fieldAt (e : Fin 64) (p : Fin 2048) (j : Fin 4) : EReal :=
  fieldOut (fun p k => q (ix3 e p k)) (fun k => pos (ix2 e k)) (fun k => ori (ix2 e k))
    (fun k j => W0 (ix3 e k j)) (fun j => b0 (ix2 e j)) (fun k j => W1 (ix3 e k j)) (fun j => b1 (ix2 e j))
    (fun k j => W2 (ix3 e k j)) (fun j => b2 (ix2 e j)) p j

/-- The whole result array, index by index. -/
def fieldSet : (⟨3, ![64, 2048, 4]⟩ : Shape).Idx → EReal := fun i => fieldAt q pos ori W0 b0 W1 b1 W2 b2 (i 0) (i 1) (i 2)

theorem fieldSet_apply (e : Fin 64) (p : Fin 2048) (j : Fin 4) :
    fieldSet q pos ori W0 b0 W1 b1 W2 b2 (ix3 e p j) = fieldAt q pos ori W0 b0 W1 b1 W2 b2 e p j := rfl

end Stacked

/-! ## A row of four holding a position then an orientation -/

/-- Entry `k` of the first pair of a row of four. -/
def lo2 (k : Fin 2) : Fin 4 := ⟨k.val, by omega⟩

/-- Entry `k` of the second pair of a row of four. -/
def hi2 (k : Fin 2) : Fin 4 := ⟨k.val + 2, by omega⟩

/-! ## The two literals, and the change of frame written the other way -/

/-- The single-precision pattern of 1. -/
theorem ofBits_one : Ideal.ofBits .f32 0x3F800000#32 = 1 := by
  simp [Ideal.ofBits, Ideal.ieee]
  rw [← EReal.coe_mul, ← EReal.coe_one]
  exact congrArg _ (by norm_num)

/-- The single-precision pattern of −1. -/
theorem ofBits_neg_one : Ideal.ofBits .f32 0xBF800000#32 = -1 := by
  simp [Ideal.ofBits, Ideal.ieee]
  rw [← EReal.coe_mul, ← EReal.coe_one]
  exact congrArg _ (by norm_num)

/-- Dividing by 1 changes nothing. -/
theorem div_one' (x : EReal) : Ideal.div x 1 = x := by
  have h := Ideal.div_coe (y := 1) one_ne_zero x
  simpa using h

/-- The real part with the conjugate spelt as a product with (1, −1): cr·1·dx − (ci·(−1))·dy = cr·dx + ci·dy. -/
theorem conj_re (cr ci dx dy : EReal) : cr * 1 * dx - ci * (-1) * dy = cr * dx + ci * dy := by
  rw [mul_one, mul_neg_one, neg_mul, sub_eq_add_neg, neg_neg]

/-- The imaginary part likewise: cr·1·dy + dx·(ci·(−1)) = cr·dy − ci·dx. -/
theorem conj_im (cr ci dx dy : EReal) : cr * 1 * dy + dx * (ci * (-1)) = cr * dy - ci * dx := by
  rw [mul_one, mul_neg_one, mul_neg, sub_eq_add_neg, mul_comm dx ci]

end Cert.FieldNet

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.KernelPayload.lean ====
/-
  The kernel body's value at the ideal instance, read one output entry at a time.

  The body handles one field: it loads the field's query points, its row of four (position, then orientation) and the
  three layers' weights and biases, and stores one block. What it leaves in the output block is the last payload applied
  to the first two. Each payload is read at an index by reading its operations one at a time: a slice, a broadcast and a
  shape cast read their operand at one named index, an elementwise operation acts on the entries, a product into the
  zero accumulator is the sum over the contracted axis, and the concatenation of the two columns reads the first column
  at column 0 and the second at column 1. The literal 1 multiplies away and the literal 0 is the zero of the maximum.
  Put together, entry (0, p, j) of the block is the field's network at point p, output j. The point p stays a variable
  throughout.
-/
import proofs.«132800_g18605798326295_fold_wed_c4_331_2_alg».proof.Proof.Gen.KernelIdeal.Frame
import proofs.«132800_g18605798326295_fold_wed_c4_331_2_alg».proof.Proof.FieldSpec
import proofs.«132800_g18605798326295_fold_wed_c4_331_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload
open Cert.KernelIdeal Cert.KernelIdeal.Gen Idealize.ShloMosaic Idealize.ShloMosaic.ValueIdx Cert.FieldNet

theorem hz3 : (![0, 0, 0] : Fin 3 → Nat) = fun _ => 0 := funext fun a => by fin_cases a <;> rfl

/-- Dropping the unit axis of the second layer's weights. -/
theorem pay3_apply (v38 : Vec Ideal S1x256x256 .f32) (k j : Fin 256) :
    k0_pay3 v38 (ix2 k j) = v38 (ix3 (0 : Fin 1) k j) :=
  shapeCast_1ab_ab_apply v38 _ k j

/-- The point in the field's frame, as the kernel builds it: two columns set side by side. -/
def localVec (v0 : Vec Ideal S1x2048x2 .f32) (v2 : Vec Ideal S1x1x4 .f32) : FVec Ideal S2048x2 .f32 :=
  have v1 : FVec Ideal S2048x2 .f32 := shapeCast S2048x2 v0 shapeCasts_S1x2048x2_S2048x2
  have v3 : FVec Ideal S1x4 .f32 := shapeCast S1x4 v2 shapeCasts_S1x1x4_S1x4
  have v4 : FVec Ideal S2048x1 .f32 := extractStridedSlice S2048x1 ![0, 0] v1 slices_S2048x2_o0_0_S2048x1
  have v5 : FVec Ideal S1x1 .f32 := extractStridedSlice S1x1 ![0, 0] v3 slices_S1x4_o0_0_S1x1
  have v6 : FVec Ideal S2048x1 .f32 := broadcastTo S2048x1 v5 broadcasts_S1x1_S2048x1
  have v7 : FVec Ideal S2048x1 .f32 := subf v4 v6
  have v8 : FVec Ideal S2048x1 .f32 := extractStridedSlice S2048x1 ![0, 1] v1 slices_S2048x2_o0_1_S2048x1
  have v9 : FVec Ideal S1x1 .f32 := extractStridedSlice S1x1 ![0, 1] v3 slices_S1x4_o0_1_S1x1
  have v10 : FVec Ideal S2048x1 .f32 := broadcastTo S2048x1 v9 broadcasts_S1x1_S2048x1
  have v11 : FVec Ideal S2048x1 .f32 := subf v8 v10
  have v12 : FVec Ideal S1x1 .f32 := extractStridedSlice S1x1 ![0, 2] v3 slices_S1x4_o0_2_S1x1
  have v13 : FVec Ideal S1x1 .f32 := extractStridedSlice S1x1 ![0, 3] v3 slices_S1x4_o0_3_S1x1
  have v14 : FVec Ideal S2048x1 .f32 := broadcastTo S2048x1 v12 broadcasts_S1x1_S2048x1
  have v15 : FVec Ideal S2048x1 .f32 := mulf v14 v7
  have v16 : FVec Ideal S2048x1 .f32 := broadcastTo S2048x1 v13 broadcasts_S1x1_S2048x1
  have v17 : FVec Ideal S2048x1 .f32 := mulf v16 v11
  have v18 : FVec Ideal S2048x1 .f32 := addf v15 v17
  have cst : Ideal .f32 := Scalar.ofBits .f32 0x3F800000#32
  have v19 : FVec Ideal S2048x1 .f32 := broadcast S2048x1 cst
  have v20 : FVec Ideal S2048x1 .f32 := mulf v18 v19
  have v21 : FVec Ideal S2048x1 .f32 := broadcastTo S2048x1 v12 broadcasts_S1x1_S2048x1
  have v22 : FVec Ideal S2048x1 .f32 := mulf v21 v11
  have v23 : FVec Ideal S2048x1 .f32 := broadcastTo S2048x1 v13 broadcasts_S1x1_S2048x1
  have v24 : FVec Ideal S2048x1 .f32 := mulf v23 v7
  have v25 : FVec Ideal S2048x1 .f32 := subf v22 v24
  have cst_5 : Ideal .f32 := Scalar.ofBits .f32 0x3F800000#32
  have v26 : FVec Ideal S2048x1 .f32 := broadcast S2048x1 cst_5
  have v27 : FVec Ideal S2048x1 .f32 := mulf v25 v26
  concatenate S2048x2 1 [⟨S2048x1, v20⟩, ⟨S2048x1, v27⟩] concatenates_S2048x1_S2048x1_S2048x2_d1

/-- The first payload is the first layer applied to that point. -/
theorem pay2_eq (v0 : Vec Ideal S1x2048x2 .f32) (v2 : Vec Ideal S1x1x4 .f32) (v29 : Vec Ideal S1x2x256 .f32)
    (v32 : Vec Ideal S1x1x256 .f32) :
    k0_pay2 v0 v2 v29 v32
      = maximumf (addf (FloatOps.matmul (DotDims.plain 2048 2 256) none (localVec v0 v2)
              (shapeCast S2x256 v29 shapeCasts_S1x2x256_S2x256 : FVec Ideal S2x256 .f32) (constant S2048x256 .f32 0x00000000#32))
            (broadcastTo S2048x256 (shapeCast S1x256 v32 shapeCasts_S1x1x256_S1x256 : FVec Ideal S1x256 .f32) broadcasts_S1x256_S2048x256))
          (broadcast S2048x256 (Scalar.ofBits (F := Ideal) .f32 0x00000000#32)) := rfl

/-- One entry of the row of four, spread down a column. -/
theorem row_apply (v2 : Vec Ideal S1x1x4 .f32) (o : Nat) (c : Fin 4) (hc : c.val = o) (hs : S1x4.Slices ![0, o] S1x1)
    (p : Fin 2048) :
    broadcastTo S2048x1 (extractStridedSlice S1x1 ![0, o] (shapeCast S1x4 v2 shapeCasts_S1x1x4_S1x4 : FVec Ideal S1x4 .f32) hs)
        broadcasts_S1x1_S2048x1 (ix2 p (0 : Fin 1))
      = v2 (ix3 (0 : Fin 1) (0 : Fin 1) c) := by
  refine (broadcastTo_1b_ab_apply _ _ p (0 : Fin 1)).trans ?_
  refine (slice2_axis1_apply o _ hs (0 : Fin 1) (0 : Fin 1) c (by simpa using hc)).trans ?_
  exact shapeCast_1ab_ab_apply v2 _ (0 : Fin 1) c

/-- One coordinate of the query points, as a column. -/
theorem qcol_apply (v0 : Vec Ideal S1x2048x2 .f32) (o : Nat) (c : Fin 2) (hc : c.val = o) (hs : S2048x2.Slices ![0, o] S2048x1)
    (p : Fin 2048) :
    extractStridedSlice S2048x1 ![0, o] (shapeCast S2048x2 v0 shapeCasts_S1x2048x2_S2048x2 : FVec Ideal S2048x2 .f32) hs
        (ix2 p (0 : Fin 1))
      = v0 (ix3 (0 : Fin 1) p c) := by
  refine (slice2_axis1_apply o _ hs p (0 : Fin 1) c (by simpa using hc)).trans ?_
  exact shapeCast_1ab_ab_apply v0 _ p c

theorem localVec_zero (v0 : Vec Ideal S1x2048x2 .f32) (v2 : Vec Ideal S1x1x4 .f32) (p : Fin 2048) :
    localVec v0 v2 (ix2 p (0 : Fin 2))
      = localX (fun p k => v0 (ix3 (0 : Fin 1) p k)) (fun k => v2 (ix3 (0 : Fin 1) (0 : Fin 1) (lo2 k)))
          (fun k => v2 (ix3 (0 : Fin 1) (0 : Fin 1) (hi2 k))) p := by
  unfold localVec
  refine (concatenate_pair_apply_left (t := S2048x2) (s₁ := S2048x1) (s₂ := S2048x1) (1 : Fin 2) _ _ _ (ix2 p (0 : Fin 2)) rfl (ix2 p (0 : Fin 1)) (fun b => ?_)).trans ?_
  · match b with
    | ⟨0, _⟩ => rfl
    | ⟨1, _⟩ => rfl
  · simp only [mulf_apply, addf_apply, subf_apply, broadcast_apply]
    rw [row_apply v2 2 (2 : Fin 4) rfl, row_apply v2 0 (0 : Fin 4) rfl, row_apply v2 3 (3 : Fin 4) rfl,
      row_apply v2 1 (1 : Fin 4) rfl, qcol_apply v0 0 (0 : Fin 2) rfl, qcol_apply v0 1 (1 : Fin 2) rfl,
      Ideal.ofBits_def, ofBits_one, mul_one]
    rfl

theorem localVec_one (v0 : Vec Ideal S1x2048x2 .f32) (v2 : Vec Ideal S1x1x4 .f32) (p : Fin 2048) :
    localVec v0 v2 (ix2 p (1 : Fin 2))
      = localY (fun p k => v0 (ix3 (0 : Fin 1) p k)) (fun k => v2 (ix3 (0 : Fin 1) (0 : Fin 1) (lo2 k)))
          (fun k => v2 (ix3 (0 : Fin 1) (0 : Fin 1) (hi2 k))) p := by
  unfold localVec
  refine (concatenate_pair_apply_right (t := S2048x2) (s₁ := S2048x1) (s₂ := S2048x1) (1 : Fin 2) _ _ _ (ix2 p (1 : Fin 2)) rfl rfl
    (ix2 p (0 : Fin 1)) (fun b hb => ?_) rfl).trans ?_
  · match b with
    | ⟨0, _⟩ => rfl
    | ⟨1, _⟩ => exact absurd rfl hb
  · simp only [mulf_apply, addf_apply, subf_apply, broadcast_apply]
    rw [row_apply v2 2 (2 : Fin 4) rfl, row_apply v2 0 (0 : Fin 4) rfl, row_apply v2 3 (3 : Fin 4) rfl,
      row_apply v2 1 (1 : Fin 4) rfl, qcol_apply v0 0 (0 : Fin 2) rfl, qcol_apply v0 1 (1 : Fin 2) rfl,
      Ideal.ofBits_def, ofBits_one, mul_one]
    rfl

/-- The two columns together are the point in the field's frame. -/
theorem localVec_apply (v0 : Vec Ideal S1x2048x2 .f32) (v2 : Vec Ideal S1x1x4 .f32) (p : Fin 2048) (k : Fin 2) :
    localVec v0 v2 (ix2 p k)
      = localPt (fun p k => v0 (ix3 (0 : Fin 1) p k)) (fun k => v2 (ix3 (0 : Fin 1) (0 : Fin 1) (lo2 k)))
          (fun k => v2 (ix3 (0 : Fin 1) (0 : Fin 1) (hi2 k))) p k := by
  match k with
  | ⟨0, _⟩ => exact localVec_zero v0 v2 p
  | ⟨1, _⟩ => exact localVec_one v0 v2 p

/-- The maximum with the zero literal. -/
theorem relu_apply {s : Shape} (x : FVec Ideal s .f32) (i : s.Idx) :
    maximumf x (broadcast s (Scalar.ofBits (F := Ideal) .f32 0x00000000#32)) i = max (x i) 0 := by
  show max (x i) (Ideal.ofBits .f32 0x00000000#32) = max (x i) 0
  rw [Ideal.ofBits_zero_f32]

/-- An affine layer at an index: the product into the zero accumulator plus the bias row. -/
theorem affine_apply {M K N : Nat} (L : FVec Ideal ⟨2, ![M, K]⟩ .f32) (R : FVec Ideal ⟨2, ![K, N]⟩ .f32)
    (b : (⟨3, ![1, 1, N]⟩ : Shape).Idx → Ideal .f32) (hb1 : (⟨3, ![1, 1, N]⟩ : Shape).ShapeCasts ⟨2, ![1, N]⟩)
    (hb2 : (⟨2, ![1, N]⟩ : Shape).Broadcasts ⟨2, ![M, N]⟩) (p : Fin M) (j : Fin N) :
    addf (FloatOps.matmul (DotDims.plain M K N) none L R (constant ⟨2, ![M, N]⟩ .f32 0x00000000#32))
        (broadcastTo ⟨2, ![M, N]⟩ (shapeCast ⟨2, ![1, N]⟩ b hb1 : FVec Ideal ⟨2, ![1, N]⟩ .f32) hb2) (ix2 p j)
      = ∑ k : Fin K, L (ix2 p k) * R (ix2 k j) + b (ix3 (0 : Fin 1) (0 : Fin 1) j) := by
  rw [addf_apply, Cert.PlainDot.matmul_zero_apply, broadcastTo_1b_ab_apply, shapeCast_1ab_ab_apply]

/-- The first payload at an index: the first hidden layer. -/
theorem pay2_apply (v0 : Vec Ideal S1x2048x2 .f32) (v2 : Vec Ideal S1x1x4 .f32) (v29 : Vec Ideal S1x2x256 .f32)
    (v32 : Vec Ideal S1x1x256 .f32) (p : Fin 2048) (j : Fin 256) :
    k0_pay2 v0 v2 v29 v32 (ix2 p j)
      = hidden1 (fun p k => v0 (ix3 (0 : Fin 1) p k)) (fun k => v2 (ix3 (0 : Fin 1) (0 : Fin 1) (lo2 k)))
          (fun k => v2 (ix3 (0 : Fin 1) (0 : Fin 1) (hi2 k))) (fun k j => v29 (ix3 (0 : Fin 1) k j))
          (fun j => v32 (ix3 (0 : Fin 1) (0 : Fin 1) j)) p j := by
  rw [pay2_eq, relu_apply, affine_apply]
  unfold hidden1
  refine congrArg (fun s => max (s + _) 0) (Finset.sum_congr rfl fun k _ => ?_)
  rw [localVec_apply, shapeCast_1ab_ab_apply]

/-- The last payload is the second and third layers, then a leading unit axis. -/
theorem pay1_eq (v37 : FVec Ideal S2048x256 .f32) (v39 : FVec Ideal S256x256 .f32) (v41 : Vec Ideal S1x1x256 .f32)
    (v47 : Vec Ideal S1x256x4 .f32) (v50 : Vec Ideal S1x1x4 .f32) :
    k0_pay1 v37 v39 v41 v47 v50
      = shapeCast S1x2048x4
          (addf (FloatOps.matmul (DotDims.plain 2048 256 4) none
              (maximumf (addf (FloatOps.matmul (DotDims.plain 2048 256 256) none v37 v39 (constant S2048x256 .f32 0x00000000#32))
                  (broadcastTo S2048x256 (shapeCast S1x256 v41 shapeCasts_S1x1x256_S1x256 : FVec Ideal S1x256 .f32)
                    broadcasts_S1x256_S2048x256))
                (broadcast S2048x256 (Scalar.ofBits (F := Ideal) .f32 0x00000000#32)))
              (shapeCast S256x4 v47 shapeCasts_S1x256x4_S256x4 : FVec Ideal S256x4 .f32) (constant S2048x4 .f32 0x00000000#32))
            (broadcastTo S2048x4 (shapeCast S1x4 v50 shapeCasts_S1x1x4_S1x4 : FVec Ideal S1x4 .f32) broadcasts_S1x4_S2048x4))
          shapeCasts_S2048x4_S1x2048x4 := rfl

/-- The last payload at an index, over any first hidden layer and any second weight matrix. -/
theorem pay1_apply (v37 : FVec Ideal S2048x256 .f32) (v39 : FVec Ideal S256x256 .f32) (v41 : Vec Ideal S1x1x256 .f32)
    (v47 : Vec Ideal S1x256x4 .f32) (v50 : Vec Ideal S1x1x4 .f32) (p : Fin 2048) (j : Fin 4) :
    k0_pay1 v37 v39 v41 v47 v50 (ix3 (0 : Fin 1) p j)
      = ∑ k : Fin 256, max (∑ k' : Fin 256, v37 (ix2 p k') * v39 (ix2 k' k) + v41 (ix3 (0 : Fin 1) (0 : Fin 1) k)) 0
            * v47 (ix3 (0 : Fin 1) k j) + v50 (ix3 (0 : Fin 1) (0 : Fin 1) j) := by
  rw [pay1_eq]
  refine (shapeCast_ab_1ab_apply _ _ (0 : Fin 1) p j).trans ?_
  refine (affine_apply _ _ v50 _ _ p j).trans ?_
  refine congrArg (· + _) (Finset.sum_congr rfl fun k _ => ?_)
  rw [shapeCast_1ab_ab_apply, relu_apply, affine_apply]

theorem out_apply (x0 : Vec Ideal S1x2048x2 .f32) (x1 : Vec Ideal S1x1x4 .f32) (x2 : Vec Ideal S1x2x256 .f32)
    (x3 : Vec Ideal S1x1x256 .f32) (x4 : Vec Ideal S1x256x256 .f32) (x5 : Vec Ideal S1x1x256 .f32)
    (x6 : Vec Ideal S1x256x4 .f32) (x7 : Vec Ideal S1x1x4 .f32) (p : Fin 2048) (j : Fin 4) :
    out0_8 (F := Ideal) x0 x1 x2 x3 x4 x5 x6 x7 (ix3 (0 : Fin 1) p j)
      = fieldOut (fun p k => x0 (ix3 (0 : Fin 1) p k)) (fun k => x1 (ix3 (0 : Fin 1) (0 : Fin 1) (lo2 k)))
          (fun k => x1 (ix3 (0 : Fin 1) (0 : Fin 1) (hi2 k)))
          (fun k j => x2 (ix3 (0 : Fin 1) k j)) (fun j => x3 (ix3 (0 : Fin 1) (0 : Fin 1) j))
          (fun k j => x4 (ix3 (0 : Fin 1) k j)) (fun j => x5 (ix3 (0 : Fin 1) (0 : Fin 1) j))
          (fun k j => x6 (ix3 (0 : Fin 1) k j)) (fun j => x7 (ix3 (0 : Fin 1) (0 : Fin 1) j)) p j := by
  unfold out0_8
  rw [View.canon_unit_zero hz3]
  simp only [View.ld_unit_zero (S := S1x2048x2) hz3, View.ld_unit_zero (S := S1x1x4) hz3,
    View.ld_unit_zero (S := S1x2x256) hz3, View.ld_unit_zero (S := S1x1x256) hz3,
    View.ld_unit_zero (S := S1x256x256) hz3, View.ld_unit_zero (S := S1x256x4) hz3]
  refine (pay1_apply _ _ x5 x6 x7 p j).trans ?_
  unfold fieldOut hidden2
  refine congrArg (· + _) (Finset.sum_congr rfl fun k _ => ?_)
  refine congrArg (fun s => max (s + _) 0 * _) (Finset.sum_congr rfl fun k' _ => ?_)
  rw [pay2_apply, pay3_apply]

end Cert.KernelIdeal.Payload
end
-- ==== Proof.KernelValue.lean ====
/-
  From one grid point's block to the whole result array.

  The kernel's grid has 64 points, one per field; at point t every window's block index is (t, 0, 0), so each of the
  nine blocks of a point is field t's slice of its array. Four of the staged arrays are made on the host before the
  launch: the positions and orientations side by side as rows of four, and the three biases, each given a unit middle
  axis; read at an index they are the arguments again. So what point t writes back — the body's value over its blocks,
  one field's network over the blocks' rows — is field t's block of the set of fields over the arguments, and since
  every index (e, p, j) lies in the block of the point that handles field e, the result array ends at that function.
-/
import proofs.«132800_g18605798326295_fold_wed_c4_331_2_alg».proof.Proof.Gen.KernelIdeal.Value
import proofs.«132800_g18605798326295_fold_wed_c4_331_2_alg».proof.Proof.FieldSpec
import proofs.«132800_g18605798326295_fold_wed_c4_331_2_alg».proof.Proof.KernelPayload
import Idealize.ShloMosaic.Lib.ValueLayout
import Idealize.ShloMosaic.Lib.StableHlo.Run

noncomputable section

namespace Cert.KernelIdeal.FieldValue

open Cert.KernelIdeal Cert.KernelIdeal.Gen Idealize.ShloMosaic Idealize.ShloMosaic.TcCoe Idealize.SL.Sem
open Idealize.ShloMosaic.ValueIdx Idealize.ShloMosaic.StableHlo Cert.FieldNet
open Idealize.ShloMosaic.Pipeline (Dat)

variable (m : (ℓ : Loc nD τ sig) → Buf (Elt Ideal) ℓ) (ρ : Dev nD → PrngReg)

/-! ## The arrays the region finds -/

/-- The packed rows (px, py, cr, ci): the two [64, 2] arguments side by side, with a unit middle axis. -/
theorem packed_eq (c : Dev nD) : (V m c main_v1 : S64x1x4.Idx → EReal)
    = shapeCast S64x1x4 (concatenate S64x4 1 [⟨S64x2, m ((c : Thread nD τ).loc main_arg1)⟩, ⟨S64x2, m ((c : Thread nD τ).loc main_arg2)⟩]
        concatenates_S64x2_S64x2_S64x4_d1) shapeCasts_S64x4_S64x1x4 := by
  dsimp only [V, hostOps0]; after_results; rfl

/-- The first bias with a unit middle axis. -/
theorem bias0_eq (c : Dev nD) : (V m c main_v2 : S64x1x256.Idx → EReal)
    = shapeCast S64x1x256 (m ((c : Thread nD τ).loc main_arg4)) shapeCasts_S64x256_S64x1x256 := by
  dsimp only [V, hostOps0]; after_results; rfl

/-- The second bias with a unit middle axis. -/
theorem bias1_eq (c : Dev nD) : (V m c main_v3 : S64x1x256.Idx → EReal)
    = shapeCast S64x1x256 (m ((c : Thread nD τ).loc main_arg6)) shapeCasts_S64x256_S64x1x256 := by
  dsimp only [V, hostOps0]; after_results; rfl

/-- The third bias with a unit middle axis. -/
theorem bias2_eq (c : Dev nD) : (V m c main_v4 : S64x1x4.Idx → EReal)
    = shapeCast S64x1x4 (m ((c : Thread nD τ).loc main_arg8)) shapeCasts_S64x4_S64x1x4 := by
  dsimp only [V, hostOps0]; after_results; rfl

/-- A [B, n] array given a unit middle axis reads, at (e, 0, k), the array at (e, k). -/
theorem midUnit_apply {B n : Nat} (x : (⟨2, ![B, n]⟩ : Shape).Idx → EReal) (h : (⟨2, ![B, n]⟩ : Shape).ShapeCasts ⟨3, ![B, 1, n]⟩)
    (e : Fin B) (z : Fin 1) (k : Fin n) : shapeCast ⟨3, ![B, 1, n]⟩ x h (ix3 e z k) = x (ix2 e k) := by
  refine shapeCast_apply x h (ix3 e z k) (ix2 e k) ?_
  rw [Shape.rowMajor_val_two, Shape.rowMajor_val_three]
  show e.val * n + k.val = (e.val * 1 + z.val) * n + k.val
  have := z.isLt
  have hz : z.val = 0 := by omega
  rw [hz, Nat.mul_one, Nat.add_zero]

/-! ## The index maps, and the nine blocks of a point read off the arguments -/

/-- At point `t` every window's block index is (t, 0, 0): one field a point, the other two axes whole. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- The field a grid point handles. -/
def fieldOf (t : Fin cfg0.N) : Fin 64 := t.cast N_0

/-- The query points' block at point `t` is field `t`'s rows of the first argument. -/
theorem blk0 (c : Dev nD) (t : Fin cfg0.N) (z : Fin 1) (p : Fin 2048) (k : Fin 2) :
    iblk m c 0 t (ix3 z p k) = m ((c : Thread nD τ).loc main_arg0) (ix3 (fieldOf t) p k) := by
  obtain ⟨⟨e0, e1, e2⟩, -⟩ := idx_facts t
  show V m c main_arg0 (((cfg0.win 0).blk t).view.emb (ix3 z p k)) = _
  rw [V_main_arg0]
  refine congrArg _ (funext fun a => Fin.ext ?_)
  match a with
  | ⟨0, _⟩ => show win0_0.index t (0 : Fin 3) * 1 + 1 * z.val = t.val; have := z.isLt; omega
  | ⟨1, _⟩ => show win0_0.index t (1 : Fin 3) * 2048 + 1 * p.val = p.val; omega
  | ⟨2, _⟩ => show win0_0.index t (2 : Fin 3) * 2 + 1 * k.val = k.val; omega

/-- The first weights' block is field `t`'s 2 × 256 matrix. -/
theorem blk2 (c : Dev nD) (t : Fin cfg0.N) (z : Fin 1) (k : Fin 2) (j : Fin 256) :
    iblk m c 2 t (ix3 z k j) = m ((c : Thread nD τ).loc main_arg3) (ix3 (fieldOf t) k j) := by
  obtain ⟨-, -, ⟨e0, e1, e2⟩, -⟩ := idx_facts t
  show V m c main_arg3 (((cfg0.win 2).blk t).view.emb (ix3 z k j)) = _
  rw [V_main_arg3]
  refine congrArg _ (funext fun a => Fin.ext ?_)
  match a with
  | ⟨0, _⟩ => show win0_2.index t (0 : Fin 3) * 1 + 1 * z.val = t.val; have := z.isLt; omega
  | ⟨1, _⟩ => show win0_2.index t (1 : Fin 3) * 2 + 1 * k.val = k.val; omega
  | ⟨2, _⟩ => show win0_2.index t (2 : Fin 3) * 256 + 1 * j.val = j.val; omega

/-- The second weights' block is field `t`'s 256 × 256 matrix. -/
theorem blk4 (c : Dev nD) (t : Fin cfg0.N) (z : Fin 1) (k : Fin 256) (j : Fin 256) :
    iblk m c 4 t (ix3 z k j) = m ((c : Thread nD τ).loc main_arg5) (ix3 (fieldOf t) k j) := by
  obtain ⟨-, -, -, -, ⟨e0, e1, e2⟩, -⟩ := idx_facts t
  show V m c main_arg5 (((cfg0.win 4).blk t).view.emb (ix3 z k j)) = _
  rw [V_main_arg5]
  refine congrArg _ (funext fun a => Fin.ext ?_)
  match a with
  | ⟨0, _⟩ => show win0_4.index t (0 : Fin 3) * 1 + 1 * z.val = t.val; have := z.isLt; omega
  | ⟨1, _⟩ => show win0_4.index t (1 : Fin 3) * 256 + 1 * k.val = k.val; omega
  | ⟨2, _⟩ => show win0_4.index t (2 : Fin 3) * 256 + 1 * j.val = j.val; omega

/-- The third weights' block is field `t`'s 256 × 4 matrix. -/
theorem blk6 (c : Dev nD) (t : Fin cfg0.N) (z : Fin 1) (k : Fin 256) (j : Fin 4) :
    iblk m c 6 t (ix3 z k j) = m ((c : Thread nD τ).loc main_arg7) (ix3 (fieldOf t) k j) := by
  obtain ⟨-, -, -, -, -, -, ⟨e0, e1, e2⟩, -⟩ := idx_facts t
  show V m c main_arg7 (((cfg0.win 6).blk t).view.emb (ix3 z k j)) = _
  rw [V_main_arg7]
  refine congrArg _ (funext fun a => Fin.ext ?_)
  match a with
  | ⟨0, _⟩ => show win0_6.index t (0 : Fin 3) * 1 + 1 * z.val = t.val; have := z.isLt; omega
  | ⟨1, _⟩ => show win0_6.index t (1 : Fin 3) * 256 + 1 * k.val = k.val; omega
  | ⟨2, _⟩ => show win0_6.index t (2 : Fin 3) * 4 + 1 * j.val = j.val; omega

/-- The first bias's block is field `t`'s row of the [64, 256] argument. -/
theorem blk3 (c : Dev nD) (t : Fin cfg0.N) (z z' : Fin 1) (j : Fin 256) :
    iblk m c 3 t (ix3 z z' j) = m ((c : Thread nD τ).loc main_arg4) (ix2 (fieldOf t) j) := by
  obtain ⟨-, -, -, ⟨e0, e1, e2⟩, -⟩ := idx_facts t
  show V m c main_v2 (((cfg0.win 3).blk t).view.emb (ix3 z z' j)) = _
  rw [bias0_eq]
  have he : ((cfg0.win 3).blk t).view.emb (ix3 z z' j) = ix3 (fieldOf t) z' j := funext fun a => Fin.ext (by
    match a with
    | ⟨0, _⟩ => show win0_3.index t (0 : Fin 3) * 1 + 1 * z.val = t.val; have := z.isLt; omega
    | ⟨1, _⟩ => show win0_3.index t (1 : Fin 3) * 1 + 1 * z'.val = z'.val; omega
    | ⟨2, _⟩ => show win0_3.index t (2 : Fin 3) * 256 + 1 * j.val = j.val; omega)
  rw [he]
  exact midUnit_apply _ _ _ _ _

/-- The second bias's block is field `t`'s row of its [64, 256] argument. -/
theorem blk5 (c : Dev nD) (t : Fin cfg0.N) (z z' : Fin 1) (j : Fin 256) :
    iblk m c 5 t (ix3 z z' j) = m ((c : Thread nD τ).loc main_arg6) (ix2 (fieldOf t) j) := by
  obtain ⟨-, -, -, -, -, ⟨e0, e1, e2⟩, -⟩ := idx_facts t
  show V m c main_v3 (((cfg0.win 5).blk t).view.emb (ix3 z z' j)) = _
  rw [bias1_eq]
  have he : ((cfg0.win 5).blk t).view.emb (ix3 z z' j) = ix3 (fieldOf t) z' j := funext fun a => Fin.ext (by
    match a with
    | ⟨0, _⟩ => show win0_5.index t (0 : Fin 3) * 1 + 1 * z.val = t.val; have := z.isLt; omega
    | ⟨1, _⟩ => show win0_5.index t (1 : Fin 3) * 1 + 1 * z'.val = z'.val; omega
    | ⟨2, _⟩ => show win0_5.index t (2 : Fin 3) * 256 + 1 * j.val = j.val; omega)
  rw [he]
  exact midUnit_apply _ _ _ _ _

/-- The third bias's block is field `t`'s row of the [64, 4] argument. -/
theorem blk7 (c : Dev nD) (t : Fin cfg0.N) (z z' : Fin 1) (j : Fin 4) :
    iblk m c 7 t (ix3 z z' j) = m ((c : Thread nD τ).loc main_arg8) (ix2 (fieldOf t) j) := by
  obtain ⟨-, -, -, -, -, -, -, ⟨e0, e1, e2⟩, -⟩ := idx_facts t
  show V m c main_v4 (((cfg0.win 7).blk t).view.emb (ix3 z z' j)) = _
  rw [bias2_eq]
  have he : ((cfg0.win 7).blk t).view.emb (ix3 z z' j) = ix3 (fieldOf t) z' j := funext fun a => Fin.ext (by
    match a with
    | ⟨0, _⟩ => show win0_7.index t (0 : Fin 3) * 1 + 1 * z.val = t.val; have := z.isLt; omega
    | ⟨1, _⟩ => show win0_7.index t (1 : Fin 3) * 1 + 1 * z'.val = z'.val; omega
    | ⟨2, _⟩ => show win0_7.index t (2 : Fin 3) * 4 + 1 * j.val = j.val; omega)
  rw [he]
  exact midUnit_apply _ _ _ _ _

/-- The packed row of point `t` at entry (0, 0, k4) is the side-by-side pair of field `t`'s position and orientation. -/
theorem blk1 (c : Dev nD) (t : Fin cfg0.N) (z z' : Fin 1) (k4 : Fin 4) :
    iblk m c 1 t (ix3 z z' k4)
      = concatenate S64x4 1 [⟨S64x2, m ((c : Thread nD τ).loc main_arg1)⟩, ⟨S64x2, m ((c : Thread nD τ).loc main_arg2)⟩]
          concatenates_S64x2_S64x2_S64x4_d1 (ix2 (fieldOf t) k4) := by
  obtain ⟨-, ⟨e0, e1, e2⟩, -⟩ := idx_facts t
  show V m c main_v1 (((cfg0.win 1).blk t).view.emb (ix3 z z' k4)) = _
  rw [packed_eq]
  have he : ((cfg0.win 1).blk t).view.emb (ix3 z z' k4) = ix3 (fieldOf t) z' k4 := funext fun a => Fin.ext (by
    match a with
    | ⟨0, _⟩ => show win0_1.index t (0 : Fin 3) * 1 + 1 * z.val = t.val; have := z.isLt; omega
    | ⟨1, _⟩ => show win0_1.index t (1 : Fin 3) * 1 + 1 * z'.val = z'.val; omega
    | ⟨2, _⟩ => show win0_1.index t (2 : Fin 3) * 4 + 1 * k4.val = k4.val; omega)
  rw [he]
  exact midUnit_apply _ _ _ _ _

/-- Its first two entries are the position. -/
theorem blk1_lo (c : Dev nD) (t : Fin cfg0.N) (z z' : Fin 1) (k : Fin 2) :
    iblk m c 1 t (ix3 z z' (lo2 k)) = m ((c : Thread nD τ).loc main_arg1) (ix2 (fieldOf t) k) := by
  rw [blk1]
  exact concatenate_pair_apply_left (t := S64x4) (s₁ := S64x2) (s₂ := S64x2) (1 : Fin 2) (m ((c : Thread nD τ).loc main_arg1)) (m ((c : Thread nD τ).loc main_arg2))
    concatenates_S64x2_S64x2_S64x4_d1 (ix2 (fieldOf t) (lo2 k)) rfl (ix2 (fieldOf t) k)
    (fun b => by match b with | ⟨0, _⟩ => rfl | ⟨1, _⟩ => rfl)

/-- Its last two entries are the orientation. -/
theorem blk1_hi (c : Dev nD) (t : Fin cfg0.N) (z z' : Fin 1) (k : Fin 2) :
    iblk m c 1 t (ix3 z z' (hi2 k)) = m ((c : Thread nD τ).loc main_arg2) (ix2 (fieldOf t) k) := by
  rw [blk1]
  exact concatenate_pair_apply_right (t := S64x4) (s₁ := S64x2) (s₂ := S64x2) (1 : Fin 2) (m ((c : Thread nD τ).loc main_arg1)) (m ((c : Thread nD τ).loc main_arg2))
    concatenates_S64x2_S64x2_S64x4_d1 (ix2 (fieldOf t) (hi2 k)) rfl rfl (ix2 (fieldOf t) k)
    (fun b hb => by match b with | ⟨0, _⟩ => rfl | ⟨1, _⟩ => exact absurd rfl hb) rfl

/-! ## What a point writes back, the cover, and the array after the run -/

/-- The set of fields over the arguments as launched. -/
def target (c : Dev nD) : S64x2048x4.Idx → EReal :=
  fieldSet (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Point `t` writes back field `t`'s block of the target: the body's value over the point's blocks is one field's
    network over that field's rows of the arguments. -/
theorem flushed_eq (c : Dev nD) (t : Fin cfg0.N) :
    (dats m 0 c).flushed 8 t = ((cfg0.win 8).blk t).view.read (Elt Ideal) (target m c) := by
  rw [Value.flushed8]
  funext y
  obtain ⟨z, p, j, rfl⟩ : ∃ (z : Fin 1) (p : Fin 2048) (j : Fin 4), y = ix3 z p j := ⟨y 0, y 1, y 2, eq_ix3 y⟩
  obtain rfl : z = 0 := Subsingleton.elim _ _
  obtain ⟨-, -, -, -, -, -, -, -, e0, e1, e2⟩ := idx_facts t
  have he : ((cfg0.win 8).blk t).view.emb (ix3 (0 : Fin 1) p j) = ix3 (fieldOf t) p j := funext fun a => Fin.ext (by
    match a with
    | ⟨0, _⟩ => show win0_8.index t (0 : Fin 3) * 1 + 1 * 0 = t.val; omega
    | ⟨1, _⟩ => show win0_8.index t (1 : Fin 3) * 2048 + 1 * p.val = p.val; omega
    | ⟨2, _⟩ => show win0_8.index t (2 : Fin 3) * 4 + 1 * j.val = j.val; omega)
  show out0_8 (iblk m c 0 t) (iblk m c 1 t) (iblk m c 2 t) (iblk m c 3 t) (iblk m c 4 t) (iblk m c 5 t) (iblk m c 6 t) (iblk m c 7 t) (ix3 (0 : Fin 1) p j)
    = target m c (((cfg0.win 8).blk t).view.emb (ix3 (0 : Fin 1) p j))
  rw [he]
  refine (Payload.out_apply (iblk m c 0 t) (iblk m c 1 t) (iblk m c 2 t) (iblk m c 3 t) (iblk m c 4 t) (iblk m c 5 t) (iblk m c 6 t) (iblk m c 7 t) p j).trans ?_
  have h0 : (fun (p : Fin 2048) (k : Fin 2) => iblk m c 0 t (ix3 (0 : Fin 1) p k)) = fun p k => m ((c : Thread nD τ).loc main_arg0) (ix3 (fieldOf t) p k) :=
    funext fun p => funext fun k => blk0 m c t 0 p k
  have h1 : (fun (k : Fin 2) => iblk m c 1 t (ix3 (0 : Fin 1) (0 : Fin 1) (lo2 k))) = fun k => m ((c : Thread nD τ).loc main_arg1) (ix2 (fieldOf t) k) :=
    funext fun k => blk1_lo m c t 0 0 k
  have h2 : (fun (k : Fin 2) => iblk m c 1 t (ix3 (0 : Fin 1) (0 : Fin 1) (hi2 k))) = fun k => m ((c : Thread nD τ).loc main_arg2) (ix2 (fieldOf t) k) :=
    funext fun k => blk1_hi m c t 0 0 k
  have h3 : (fun (k : Fin 2) (j : Fin 256) => iblk m c 2 t (ix3 (0 : Fin 1) k j)) = fun k j => m ((c : Thread nD τ).loc main_arg3) (ix3 (fieldOf t) k j) :=
    funext fun k => funext fun j => blk2 m c t 0 k j
  have h4 : (fun (j : Fin 256) => iblk m c 3 t (ix3 (0 : Fin 1) (0 : Fin 1) j)) = fun j => m ((c : Thread nD τ).loc main_arg4) (ix2 (fieldOf t) j) :=
    funext fun j => blk3 m c t 0 0 j
  have h5 : (fun (k : Fin 256) (j : Fin 256) => iblk m c 4 t (ix3 (0 : Fin 1) k j)) = fun k j => m ((c : Thread nD τ).loc main_arg5) (ix3 (fieldOf t) k j) :=
    funext fun k => funext fun j => blk4 m c t 0 k j
  have h6 : (fun (j : Fin 256) => iblk m c 5 t (ix3 (0 : Fin 1) (0 : Fin 1) j)) = fun j => m ((c : Thread nD τ).loc main_arg6) (ix2 (fieldOf t) j) :=
    funext fun j => blk5 m c t 0 0 j
  have h7 : (fun (k : Fin 256) (j : Fin 4) => iblk m c 6 t (ix3 (0 : Fin 1) k j)) = fun k j => m ((c : Thread nD τ).loc main_arg7) (ix3 (fieldOf t) k j) :=
    funext fun k => funext fun j => blk6 m c t 0 k j
  have h8 : (fun (j : Fin 4) => iblk m c 7 t (ix3 (0 : Fin 1) (0 : Fin 1) j)) = fun j => m ((c : Thread nD τ).loc main_arg8) (ix2 (fieldOf t) j) :=
    funext fun j => blk7 m c t 0 0 j
  rw [h0, h1, h2, h3, h4, h5, h6, h7, h8]
  rfl

/-- An index of the result array is in point `t`'s block iff each coordinate is in the block's range on its axis. -/
theorem mem_blk (t : Fin cfg0.N) (i : S64x2048x4.Idx) :
    i ∈ ((cfg0.win 8).blk t).view.set ↔ ∀ a : Fin 3, win0_8.index t a * S1x2048x4.size a ≤ (i a).val ∧ (i a).val < win0_8.index t a * S1x2048x4.size a + S1x2048x4.size a := by
  show i ∈ ((View.whole main_v5).slice (win0_8.rect t)).set ↔ _
  rw [View.set_slice_whole, Rect.mem_set_unit]
  exact Iff.rfl

/-- Every index (e, p, j) of the result is in the block of the point that handles field `e`. -/
theorem cover (i : S64x2048x4.Idx) : ∃ t : Fin cfg0.N, (cfg0.win 8).flush t = true ∧ i ∈ ((cfg0.win 8).blk t).view.set := by
  have hi0 : (i 0).val < 64 := (i 0).isLt
  have hi1 : (i 1).val < 2048 := (i 1).isLt
  have hi2 : (i 2).val < 4 := (i 2).isLt
  let T : Fin cfg0.N := (⟨(i 0).val, hi0⟩ : Fin 64).cast N_0.symm
  have hT : T.val = (i 0).val := rfl
  obtain ⟨-, -, -, -, -, -, -, -, e0, e1, e2⟩ := idx_facts T
  refine ⟨T, flush0_8 T, ?_⟩
  rw [mem_blk]
  intro a
  match a with
  | ⟨0, _⟩ => show win0_8.index T (0 : Fin 3) * 1 ≤ (i 0).val ∧ (i 0).val < win0_8.index T (0 : Fin 3) * 1 + 1; omega
  | ⟨1, _⟩ => show win0_8.index T (1 : Fin 3) * 2048 ≤ (i 1).val ∧ (i 1).val < win0_8.index T (1 : Fin 3) * 2048 + 2048; omega
  | ⟨2, _⟩ => show win0_8.index T (2 : Fin 3) * 4 ≤ (i 2).val ∧ (i 2).val < win0_8.index T (2 : Fin 3) * 4 + 4; omega

/-- After the run the result array is the set of fields over the arguments. -/
theorem final (c : Dev nD) : (dats m 0 c).arrAt 8 cfg0.N = target m c :=
  (dats m 0 c).arrAt_eq_of_cover 8 (target m c) (fun t _ => flushed_eq m c t) cover

/-- Every weakly fair execution of the kernel's program ends with the result at the set of fields over the arguments,
    the arguments unchanged. -/
theorem run : θ_run defs (onTc (τ := τ) (main (F := Ideal))) ⟨m, fun _ => 0, ρ⟩ fun r => ∀ c : Dev nD,
      r.2.mem ((c : Thread nD τ).loc main_v5) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.FieldValue

end
-- ==== Proof.RefStages.lean ====
/-
  The reference computation cut into named stages, for any float instance.

  The reference subtracts each field's position from its query points, conjugates the orientation by a product with the
  constant pair (1, −1), forms the complex product coordinate by coordinate, divides by the unit radius, and applies the
  three batched affine layers. Each definition below is one stretch of that chain as a function of the arrays it reads;
  `result` is the whole chain as a function of the nine arguments.
-/
import proofs.«132800_g18605798326295_fold_wed_c4_331_2_alg».proof.Proof.Gen.ReferenceIdeal

noncomputable section

namespace Cert.ReferenceIdeal.Stage

open Cert.ReferenceIdeal Cert.ReferenceIdeal.Gen Idealize.ShloMosaic

variable {F : FTy → Type} [FloatOps F]

/-- The query points less their field's position, the position repeated down the points. -/
def diff (a0 : FVec F S64x2048x2 .f32) (a1 : FVec F S64x2 .f32) : FVec F S64x2048x2 .f32 :=
  subf a0 (broadcastInDim S64x2048x2 ![0, 1, 2] bcast_S64x1x2_S64x2048x2_0_1_2 (broadcastInDim S64x1x2 ![0, 2] bcast_S64x2_S64x1x2_0_2 a1))

/-- The orientation times the constant pair (1, −1), with a unit middle axis. -/
def conjOri (a2 : FVec F S64x2 .f32) : FVec F S64x1x2 .f32 :=
  broadcastInDim S64x1x2 ![0, 2] bcast_S64x2_S64x1x2_0_2
    (mulf a2 (broadcastInDim S64x2 ![0, 1] bcast_S1x2_S64x2_0_1
      (broadcastInDim S1x2 ![1] bcast_S2_S1x2_1 (fun i => FloatOps.ofBits .f32 (lit0 (S2.rowMajor i))))))

/-- Its real part, one per field. -/
def oriRe (v6 : FVec F S64x1x2 .f32) : FVec F S64x1 .f32 :=
  shapeCast S64x1 (extractStridedSlice S64x1x1 ![0, 0, 0] v6 slices_S64x1x2_S64x1x1_0_0_0) shapeCasts_S64x1x1_S64x1

/-- Its imaginary part, one per field. -/
def oriIm (v6 : FVec F S64x1x2 .f32) : FVec F S64x1 .f32 :=
  shapeCast S64x1 (extractStridedSlice S64x1x1 ![0, 0, 1] v6 slices_S64x1x2_S64x1x1_0_0_1) shapeCasts_S64x1x1_S64x1

/-- The first coordinate of the differences. -/
def diffX (v2 : FVec F S64x2048x2 .f32) : FVec F S64x2048 .f32 :=
  shapeCast S64x2048 (extractStridedSlice S64x2048x1 ![0, 0, 0] v2 slices_S64x2048x2_S64x2048x1_0_0_0) shapeCasts_S64x2048x1_S64x2048

/-- The second coordinate of the differences. -/
def diffY (v2 : FVec F S64x2048x2 .f32) : FVec F S64x2048 .f32 :=
  shapeCast S64x2048 (extractStridedSlice S64x2048x1 ![0, 0, 1] v2 slices_S64x2048x2_S64x2048x1_0_0_1) shapeCasts_S64x2048x1_S64x2048

/-- The complex product's two coordinates side by side, divided by the unit radius. -/
def rotated (v8 v10 : FVec F S64x1 .f32) (v12 v14 : FVec F S64x2048 .f32) : FVec F S64x2048x2 .f32 :=
  Host.divf
    (concatenate S64x2048x2 2
      [⟨S64x2048x1, broadcastInDim S64x2048x1 ![0, 1] bcast_S64x2048_S64x2048x1_0_1
          (subf (mulf (broadcastInDim S64x2048 ![0, 1] bcast_S64x1_S64x2048_0_1 v8) v12)
            (mulf (broadcastInDim S64x2048 ![0, 1] bcast_S64x1_S64x2048_0_1 v10) v14))⟩,
       ⟨S64x2048x1, broadcastInDim S64x2048x1 ![0, 1] bcast_S64x2048_S64x2048x1_0_1
          (addf (mulf (broadcastInDim S64x2048 ![0, 1] bcast_S64x1_S64x2048_0_1 v8) v14)
            (mulf v12 (broadcastInDim S64x2048 ![0, 1] bcast_S64x1_S64x2048_0_1 v10)))⟩]
      concatenates_S64x2048x1_S64x2048x1_S64x2048x2_d2)
    (broadcastInDim S64x2048x2 ![] bcast_S_S64x2048x2 (constant S_ .f32 0x3F800000#32))

/-- First layer: the batched product with the 2 × 256 weights, the bias repeated down the points, the maximum with zero. -/
def layer1 (x : FVec F S64x2048x2 .f32) (a3 : FVec F S64x2x256 .f32) (a4 : FVec F S64x256 .f32) : FVec F S64x2048x256 .f32 :=
  maximumf
    (addf (Host.dotGeneral dot_S64x2048x2_S64x2x256_S64x2048x256_2_1_1_2_0_0 none x a3)
      (broadcastInDim S64x2048x256 ![0, 1, 2] bcast_S64x1x256_S64x2048x256_0_1_2 (broadcastInDim S64x1x256 ![0, 2] bcast_S64x256_S64x1x256_0_2 a4)))
    (broadcastInDim S64x2048x256 ![] bcast_S_S64x2048x256 (constant S_ .f32 0x00000000#32))

/-- Second layer: 256 × 256 weights, bias, the maximum with zero. -/
def layer2 (x : FVec F S64x2048x256 .f32) (a5 : FVec F S64x256x256 .f32) (a6 : FVec F S64x256 .f32) : FVec F S64x2048x256 .f32 :=
  maximumf
    (addf (Host.dotGeneral dot_S64x2048x256_S64x256x256_S64x2048x256_2_1_1_2_0_0 none x a5)
      (broadcastInDim S64x2048x256 ![0, 1, 2] bcast_S64x1x256_S64x2048x256_0_1_2 (broadcastInDim S64x1x256 ![0, 2] bcast_S64x256_S64x1x256_0_2 a6)))
    (broadcastInDim S64x2048x256 ![] bcast_S_S64x2048x256 (constant S_ .f32 0x00000000#32))

/-- Third layer: 256 × 4 weights and the bias. -/
def layer3 (x : FVec F S64x2048x256 .f32) (a7 : FVec F S64x256x4 .f32) (a8 : FVec F S64x4 .f32) : FVec F S64x2048x4 .f32 :=
  addf (Host.dotGeneral dot_S64x2048x256_S64x256x4_S64x2048x4_2_1_1_2_0_0 none x a7)
    (broadcastInDim S64x2048x4 ![0, 1, 2] bcast_S64x1x4_S64x2048x4_0_1_2 (broadcastInDim S64x1x4 ![0, 2] bcast_S64x4_S64x1x4_0_2 a8))

/-- The whole chain. -/
def result (a0 : FVec F S64x2048x2 .f32) (a1 a2 : FVec F S64x2 .f32) (a3 : FVec F S64x2x256 .f32) (a4 : FVec F S64x256 .f32)
    (a5 : FVec F S64x256x256 .f32) (a6 : FVec F S64x256 .f32) (a7 : FVec F S64x256x4 .f32) (a8 : FVec F S64x4 .f32) :
    FVec F S64x2048x4 .f32 :=
  layer3 (layer2 (layer1
    (rotated (oriRe (conjOri a2)) (oriIm (conjOri a2)) (diffX (diff a0 a1)) (diffY (diff a0 a1))) a3 a4) a5 a6) a7 a8

end Cert.ReferenceIdeal.Stage

end
-- ==== Proof.RefRun.lean ====
/-
  The reference program's run. @main is a straight line of 50 host operations and no kernel: listed in order, it is
  `seq` of the list, so every weakly fair execution terminates with each buffer at the fold of the operations' results
  over the launch contents. Read at the result buffer, that fold is the chain of stage functions of RefStages.lean applied
  to the nine arguments' launch contents; read at an argument, which no operation writes, it is the launch contents.

  The fold at the result is computed in two stretches, cut before the concatenate: the first 28 operations end with the two
  coordinates of the complex product, each a function of the first three arguments; the last 22 join them, divide by the
  unit radius and apply the three layers to what the first stretch left.
-/
import proofs.«132800_g18605798326295_fold_wed_c4_331_2_alg».proof.Proof.Gen.ReferenceIdeal
import proofs.«132800_g18605798326295_fold_wed_c4_331_2_alg».proof.Proof.RefStages
import Idealize.ShloMosaic.Lib.StableHlo.Run
import Idealize.ShloMosaic.Lib.Pipeline.Frame

noncomputable section

namespace Cert.ReferenceIdeal.RefRun
open Cert.ReferenceIdeal Cert.ReferenceIdeal.Gen Idealize.ShloMosaic Idealize.ShloMosaic.TcCoe Idealize.SL.Sem Idealize.ShloMosaic.StableHlo
variable {F : FTy → Type} [FloatOps F]

/-- @main's 50 operations, in order. -/
abbrev ops : List (HloOp τ sig (Elt F)) :=
  [ nullary main_cst (fun i => FloatOps.ofBits .f32 (lit0 (S2.rowMajor i))),
    unary main_arg1 main_v0 (broadcastInDim S64x1x2 ![0, 2] bcast_S64x2_S64x1x2_0_2 : (⟨S64x2, .f32⟩ : BufTy).Contents (Elt F) → (⟨S64x1x2, .f32⟩ : BufTy).Contents (Elt F)),
    unary main_v0 main_v1 (broadcastInDim S64x2048x2 ![0, 1, 2] bcast_S64x1x2_S64x2048x2_0_1_2 : (⟨S64x1x2, .f32⟩ : BufTy).Contents (Elt F) → (⟨S64x2048x2, .f32⟩ : BufTy).Contents (Elt F)),
    binary main_arg0 main_v1 main_v2 (subf : (⟨S64x2048x2, .f32⟩ : BufTy).Contents (Elt F) → (⟨S64x2048x2, .f32⟩ : BufTy).Contents (Elt F) → (⟨S64x2048x2, .f32⟩ : BufTy).Contents (Elt F)),
    unary main_cst main_v3 (broadcastInDim S1x2 ![1] bcast_S2_S1x2_1 : (⟨S2, .f32⟩ : BufTy).Contents (Elt F) → (⟨S1x2, .f32⟩ : BufTy).Contents (Elt F)),
    unary main_v3 main_v4 (broadcastInDim S64x2 ![0, 1] bcast_S1x2_S64x2_0_1 : (⟨S1x2, .f32⟩ : BufTy).Contents (Elt F) → (⟨S64x2, .f32⟩ : BufTy).Contents (Elt F)),
    binary main_arg2 main_v4 main_v5 (mulf : (⟨S64x2, .f32⟩ : BufTy).Contents (Elt F) → (⟨S64x2, .f32⟩ : BufTy).Contents (Elt F) → (⟨S64x2, .f32⟩ : BufTy).Contents (Elt F)),
    unary main_v5 main_v6 (broadcastInDim S64x1x2 ![0, 2] bcast_S64x2_S64x1x2_0_2 : (⟨S64x2, .f32⟩ : BufTy).Contents (Elt F) → (⟨S64x1x2, .f32⟩ : BufTy).Contents (Elt F)),
    unary main_v6 main_v7 ((extractStridedSlice S64x1x1 ![0, 0, 0] · slices_S64x1x2_S64x1x1_0_0_0) : (⟨S64x1x2, .f32⟩ : BufTy).Contents (Elt F) → (⟨S64x1x1, .f32⟩ : BufTy).Contents (Elt F)),
    reshape main_v7 main_v8 rfl shapeCasts_S64x1x1_S64x1,
    unary main_v6 main_v9 ((extractStridedSlice S64x1x1 ![0, 0, 1] · slices_S64x1x2_S64x1x1_0_0_1) : (⟨S64x1x2, .f32⟩ : BufTy).Contents (Elt F) → (⟨S64x1x1, .f32⟩ : BufTy).Contents (Elt F)),
    reshape main_v9 main_v10 rfl shapeCasts_S64x1x1_S64x1,
    unary main_v2 main_v11 ((extractStridedSlice S64x2048x1 ![0, 0, 0] · slices_S64x2048x2_S64x2048x1_0_0_0) : (⟨S64x2048x2, .f32⟩ : BufTy).Contents (Elt F) → (⟨S64x2048x1, .f32⟩ : BufTy).Contents (Elt F)),
    reshape main_v11 main_v12 rfl shapeCasts_S64x2048x1_S64x2048,
    unary main_v2 main_v13 ((extractStridedSlice S64x2048x1 ![0, 0, 1] · slices_S64x2048x2_S64x2048x1_0_0_1) : (⟨S64x2048x2, .f32⟩ : BufTy).Contents (Elt F) → (⟨S64x2048x1, .f32⟩ : BufTy).Contents (Elt F)),
    reshape main_v13 main_v14 rfl shapeCasts_S64x2048x1_S64x2048,
    unary main_v8 main_v15 (broadcastInDim S64x2048 ![0, 1] bcast_S64x1_S64x2048_0_1 : (⟨S64x1, .f32⟩ : BufTy).Contents (Elt F) → (⟨S64x2048, .f32⟩ : BufTy).Contents (Elt F)),
    binary main_v15 main_v12 main_v16 (mulf : (⟨S64x2048, .f32⟩ : BufTy).Contents (Elt F) → (⟨S64x2048, .f32⟩ : BufTy).Contents (Elt F) → (⟨S64x2048, .f32⟩ : BufTy).Contents (Elt F)),
    unary main_v10 main_v17 (broadcastInDim S64x2048 ![0, 1] bcast_S64x1_S64x2048_0_1 : (⟨S64x1, .f32⟩ : BufTy).Contents (Elt F) → (⟨S64x2048, .f32⟩ : BufTy).Contents (Elt F)),
    binary main_v17 main_v14 main_v18 (mulf : (⟨S64x2048, .f32⟩ : BufTy).Contents (Elt F) → (⟨S64x2048, .f32⟩ : BufTy).Contents (Elt F) → (⟨S64x2048, .f32⟩ : BufTy).Contents (Elt F)),
    binary main_v16 main_v18 main_v19 (subf : (⟨S64x2048, .f32⟩ : BufTy).Contents (Elt F) → (⟨S64x2048, .f32⟩ : BufTy).Contents (Elt F) → (⟨S64x2048, .f32⟩ : BufTy).Contents (Elt F)),
    unary main_v8 main_v20 (broadcastInDim S64x2048 ![0, 1] bcast_S64x1_S64x2048_0_1 : (⟨S64x1, .f32⟩ : BufTy).Contents (Elt F) → (⟨S64x2048, .f32⟩ : BufTy).Contents (Elt F)),
    binary main_v20 main_v14 main_v21 (mulf : (⟨S64x2048, .f32⟩ : BufTy).Contents (Elt F) → (⟨S64x2048, .f32⟩ : BufTy).Contents (Elt F) → (⟨S64x2048, .f32⟩ : BufTy).Contents (Elt F)),
    unary main_v10 main_v22 (broadcastInDim S64x2048 ![0, 1] bcast_S64x1_S64x2048_0_1 : (⟨S64x1, .f32⟩ : BufTy).Contents (Elt F) → (⟨S64x2048, .f32⟩ : BufTy).Contents (Elt F)),
    binary main_v12 main_v22 main_v23 (mulf : (⟨S64x2048, .f32⟩ : BufTy).Contents (Elt F) → (⟨S64x2048, .f32⟩ : BufTy).Contents (Elt F) → (⟨S64x2048, .f32⟩ : BufTy).Contents (Elt F)),
    binary main_v21 main_v23 main_v24 (addf : (⟨S64x2048, .f32⟩ : BufTy).Contents (Elt F) → (⟨S64x2048, .f32⟩ : BufTy).Contents (Elt F) → (⟨S64x2048, .f32⟩ : BufTy).Contents (Elt F)),
    unary main_v19 main_v25 (broadcastInDim S64x2048x1 ![0, 1] bcast_S64x2048_S64x2048x1_0_1 : (⟨S64x2048, .f32⟩ : BufTy).Contents (Elt F) → (⟨S64x2048x1, .f32⟩ : BufTy).Contents (Elt F)),
    unary main_v24 main_v26 (broadcastInDim S64x2048x1 ![0, 1] bcast_S64x2048_S64x2048x1_0_1 : (⟨S64x2048, .f32⟩ : BufTy).Contents (Elt F) → (⟨S64x2048x1, .f32⟩ : BufTy).Contents (Elt F)),
    binary main_v25 main_v26 main_v27 ((fun a b => concatenate S64x2048x2 2 [⟨S64x2048x1, a⟩, ⟨S64x2048x1, b⟩] concatenates_S64x2048x1_S64x2048x1_S64x2048x2_d2) : (⟨S64x2048x1, .f32⟩ : BufTy).Contents (Elt F) → (⟨S64x2048x1, .f32⟩ : BufTy).Contents (Elt F) → (⟨S64x2048x2, .f32⟩ : BufTy).Contents (Elt F)),
    nullary main_cst_0 (constant S_ .f32 0x3F800000#32),
    unary main_cst_0 main_v28 (broadcastInDim S64x2048x2 ![] bcast_S_S64x2048x2 : (⟨S_, .f32⟩ : BufTy).Contents (Elt F) → (⟨S64x2048x2, .f32⟩ : BufTy).Contents (Elt F)),
    binary main_v27 main_v28 main_v29 (Host.divf : (⟨S64x2048x2, .f32⟩ : BufTy).Contents (Elt F) → (⟨S64x2048x2, .f32⟩ : BufTy).Contents (Elt F) → (⟨S64x2048x2, .f32⟩ : BufTy).Contents (Elt F)),
    binary main_v29 main_arg3 main_v30 ((fun l r => Host.dotGeneral dot_S64x2048x2_S64x2x256_S64x2048x256_2_1_1_2_0_0 none l r) : (⟨S64x2048x2, .f32⟩ : BufTy).Contents (Elt F) → (⟨S64x2x256, .f32⟩ : BufTy).Contents (Elt F) → (⟨S64x2048x256, .f32⟩ : BufTy).Contents (Elt F)),
    unary main_arg4 main_v31 (broadcastInDim S64x1x256 ![0, 2] bcast_S64x256_S64x1x256_0_2 : (⟨S64x256, .f32⟩ : BufTy).Contents (Elt F) → (⟨S64x1x256, .f32⟩ : BufTy).Contents (Elt F)),
    unary main_v31 main_v32 (broadcastInDim S64x2048x256 ![0, 1, 2] bcast_S64x1x256_S64x2048x256_0_1_2 : (⟨S64x1x256, .f32⟩ : BufTy).Contents (Elt F) → (⟨S64x2048x256, .f32⟩ : BufTy).Contents (Elt F)),
    binary main_v30 main_v32 main_v33 (addf : (⟨S64x2048x256, .f32⟩ : BufTy).Contents (Elt F) → (⟨S64x2048x256, .f32⟩ : BufTy).Contents (Elt F) → (⟨S64x2048x256, .f32⟩ : BufTy).Contents (Elt F)),
    nullary main_cst_1 (constant S_ .f32 0x00000000#32),
    unary main_cst_1 main_v34 (broadcastInDim S64x2048x256 ![] bcast_S_S64x2048x256 : (⟨S_, .f32⟩ : BufTy).Contents (Elt F) → (⟨S64x2048x256, .f32⟩ : BufTy).Contents (Elt F)),
    binary main_v33 main_v34 main_v35 (maximumf : (⟨S64x2048x256, .f32⟩ : BufTy).Contents (Elt F) → (⟨S64x2048x256, .f32⟩ : BufTy).Contents (Elt F) → (⟨S64x2048x256, .f32⟩ : BufTy).Contents (Elt F)),
    binary main_v35 main_arg5 main_v36 ((fun l r => Host.dotGeneral dot_S64x2048x256_S64x256x256_S64x2048x256_2_1_1_2_0_0 none l r) : (⟨S64x2048x256, .f32⟩ : BufTy).Contents (Elt F) → (⟨S64x256x256, .f32⟩ : BufTy).Contents (Elt F) → (⟨S64x2048x256, .f32⟩ : BufTy).Contents (Elt F)),
    unary main_arg6 main_v37 (broadcastInDim S64x1x256 ![0, 2] bcast_S64x256_S64x1x256_0_2 : (⟨S64x256, .f32⟩ : BufTy).Contents (Elt F) → (⟨S64x1x256, .f32⟩ : BufTy).Contents (Elt F)),
    unary main_v37 main_v38 (broadcastInDim S64x2048x256 ![0, 1, 2] bcast_S64x1x256_S64x2048x256_0_1_2 : (⟨S64x1x256, .f32⟩ : BufTy).Contents (Elt F) → (⟨S64x2048x256, .f32⟩ : BufTy).Contents (Elt F)),
    binary main_v36 main_v38 main_v39 (addf : (⟨S64x2048x256, .f32⟩ : BufTy).Contents (Elt F) → (⟨S64x2048x256, .f32⟩ : BufTy).Contents (Elt F) → (⟨S64x2048x256, .f32⟩ : BufTy).Contents (Elt F)),
    nullary main_cst_2 (constant S_ .f32 0x00000000#32),
    unary main_cst_2 main_v40 (broadcastInDim S64x2048x256 ![] bcast_S_S64x2048x256 : (⟨S_, .f32⟩ : BufTy).Contents (Elt F) → (⟨S64x2048x256, .f32⟩ : BufTy).Contents (Elt F)),
    binary main_v39 main_v40 main_v41 (maximumf : (⟨S64x2048x256, .f32⟩ : BufTy).Contents (Elt F) → (⟨S64x2048x256, .f32⟩ : BufTy).Contents (Elt F) → (⟨S64x2048x256, .f32⟩ : BufTy).Contents (Elt F)),
    binary main_v41 main_arg7 main_v42 ((fun l r => Host.dotGeneral dot_S64x2048x256_S64x256x4_S64x2048x4_2_1_1_2_0_0 none l r) : (⟨S64x2048x256, .f32⟩ : BufTy).Contents (Elt F) → (⟨S64x256x4, .f32⟩ : BufTy).Contents (Elt F) → (⟨S64x2048x4, .f32⟩ : BufTy).Contents (Elt F)),
    unary main_arg8 main_v43 (broadcastInDim S64x1x4 ![0, 2] bcast_S64x4_S64x1x4_0_2 : (⟨S64x4, .f32⟩ : BufTy).Contents (Elt F) → (⟨S64x1x4, .f32⟩ : BufTy).Contents (Elt F)),
    unary main_v43 main_v44 (broadcastInDim S64x2048x4 ![0, 1, 2] bcast_S64x1x4_S64x2048x4_0_1_2 : (⟨S64x1x4, .f32⟩ : BufTy).Contents (Elt F) → (⟨S64x2048x4, .f32⟩ : BufTy).Contents (Elt F)),
    binary main_v42 main_v44 main_v45 (addf : (⟨S64x2048x4, .f32⟩ : BufTy).Contents (Elt F) → (⟨S64x2048x4, .f32⟩ : BufTy).Contents (Elt F) → (⟨S64x2048x4, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., binary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-! ## The fold at the result, in two stretches -/

/-- The first 28 operations: up to the two coordinates of the complex product. -/
abbrev opsA : List (HloOp τ sig (Elt F)) :=
  [ nullary main_cst (fun i => FloatOps.ofBits .f32 (lit0 (S2.rowMajor i))),
    unary main_arg1 main_v0 (broadcastInDim S64x1x2 ![0, 2] bcast_S64x2_S64x1x2_0_2 : (⟨S64x2, .f32⟩ : BufTy).Contents (Elt F) → (⟨S64x1x2, .f32⟩ : BufTy).Contents (Elt F)),
    unary main_v0 main_v1 (broadcastInDim S64x2048x2 ![0, 1, 2] bcast_S64x1x2_S64x2048x2_0_1_2 : (⟨S64x1x2, .f32⟩ : BufTy).Contents (Elt F) → (⟨S64x2048x2, .f32⟩ : BufTy).Contents (Elt F)),
    binary main_arg0 main_v1 main_v2 (subf : (⟨S64x2048x2, .f32⟩ : BufTy).Contents (Elt F) → (⟨S64x2048x2, .f32⟩ : BufTy).Contents (Elt F) → (⟨S64x2048x2, .f32⟩ : BufTy).Contents (Elt F)),
    unary main_cst main_v3 (broadcastInDim S1x2 ![1] bcast_S2_S1x2_1 : (⟨S2, .f32⟩ : BufTy).Contents (Elt F) → (⟨S1x2, .f32⟩ : BufTy).Contents (Elt F)),
    unary main_v3 main_v4 (broadcastInDim S64x2 ![0, 1] bcast_S1x2_S64x2_0_1 : (⟨S1x2, .f32⟩ : BufTy).Contents (Elt F) → (⟨S64x2, .f32⟩ : BufTy).Contents (Elt F)),
    binary main_arg2 main_v4 main_v5 (mulf : (⟨S64x2, .f32⟩ : BufTy).Contents (Elt F) → (⟨S64x2, .f32⟩ : BufTy).Contents (Elt F) → (⟨S64x2, .f32⟩ : BufTy).Contents (Elt F)),
    unary main_v5 main_v6 (broadcastInDim S64x1x2 ![0, 2] bcast_S64x2_S64x1x2_0_2 : (⟨S64x2, .f32⟩ : BufTy).Contents (Elt F) → (⟨S64x1x2, .f32⟩ : BufTy).Contents (Elt F)),
    unary main_v6 main_v7 ((extractStridedSlice S64x1x1 ![0, 0, 0] · slices_S64x1x2_S64x1x1_0_0_0) : (⟨S64x1x2, .f32⟩ : BufTy).Contents (Elt F) → (⟨S64x1x1, .f32⟩ : BufTy).Contents (Elt F)),
    reshape main_v7 main_v8 rfl shapeCasts_S64x1x1_S64x1,
    unary main_v6 main_v9 ((extractStridedSlice S64x1x1 ![0, 0, 1] · slices_S64x1x2_S64x1x1_0_0_1) : (⟨S64x1x2, .f32⟩ : BufTy).Contents (Elt F) → (⟨S64x1x1, .f32⟩ : BufTy).Contents (Elt F)),
    reshape main_v9 main_v10 rfl shapeCasts_S64x1x1_S64x1,
    unary main_v2 main_v11 ((extractStridedSlice S64x2048x1 ![0, 0, 0] · slices_S64x2048x2_S64x2048x1_0_0_0) : (⟨S64x2048x2, .f32⟩ : BufTy).Contents (Elt F) → (⟨S64x2048x1, .f32⟩ : BufTy).Contents (Elt F)),
    reshape main_v11 main_v12 rfl shapeCasts_S64x2048x1_S64x2048,
    unary main_v2 main_v13 ((extractStridedSlice S64x2048x1 ![0, 0, 1] · slices_S64x2048x2_S64x2048x1_0_0_1) : (⟨S64x2048x2, .f32⟩ : BufTy).Contents (Elt F) → (⟨S64x2048x1, .f32⟩ : BufTy).Contents (Elt F)),
    reshape main_v13 main_v14 rfl shapeCasts_S64x2048x1_S64x2048,
    unary main_v8 main_v15 (broadcastInDim S64x2048 ![0, 1] bcast_S64x1_S64x2048_0_1 : (⟨S64x1, .f32⟩ : BufTy).Contents (Elt F) → (⟨S64x2048, .f32⟩ : BufTy).Contents (Elt F)),
    binary main_v15 main_v12 main_v16 (mulf : (⟨S64x2048, .f32⟩ : BufTy).Contents (Elt F) → (⟨S64x2048, .f32⟩ : BufTy).Contents (Elt F) → (⟨S64x2048, .f32⟩ : BufTy).Contents (Elt F)),
    unary main_v10 main_v17 (broadcastInDim S64x2048 ![0, 1] bcast_S64x1_S64x2048_0_1 : (⟨S64x1, .f32⟩ : BufTy).Contents (Elt F) → (⟨S64x2048, .f32⟩ : BufTy).Contents (Elt F)),
    binary main_v17 main_v14 main_v18 (mulf : (⟨S64x2048, .f32⟩ : BufTy).Contents (Elt F) → (⟨S64x2048, .f32⟩ : BufTy).Contents (Elt F) → (⟨S64x2048, .f32⟩ : BufTy).Contents (Elt F)),
    binary main_v16 main_v18 main_v19 (subf : (⟨S64x2048, .f32⟩ : BufTy).Contents (Elt F) → (⟨S64x2048, .f32⟩ : BufTy).Contents (Elt F) → (⟨S64x2048, .f32⟩ : BufTy).Contents (Elt F)),
    unary main_v8 main_v20 (broadcastInDim S64x2048 ![0, 1] bcast_S64x1_S64x2048_0_1 : (⟨S64x1, .f32⟩ : BufTy).Contents (Elt F) → (⟨S64x2048, .f32⟩ : BufTy).Contents (Elt F)),
    binary main_v20 main_v14 main_v21 (mulf : (⟨S64x2048, .f32⟩ : BufTy).Contents (Elt F) → (⟨S64x2048, .f32⟩ : BufTy).Contents (Elt F) → (⟨S64x2048, .f32⟩ : BufTy).Contents (Elt F)),
    unary main_v10 main_v22 (broadcastInDim S64x2048 ![0, 1] bcast_S64x1_S64x2048_0_1 : (⟨S64x1, .f32⟩ : BufTy).Contents (Elt F) → (⟨S64x2048, .f32⟩ : BufTy).Contents (Elt F)),
    binary main_v12 main_v22 main_v23 (mulf : (⟨S64x2048, .f32⟩ : BufTy).Contents (Elt F) → (⟨S64x2048, .f32⟩ : BufTy).Contents (Elt F) → (⟨S64x2048, .f32⟩ : BufTy).Contents (Elt F)),
    binary main_v21 main_v23 main_v24 (addf : (⟨S64x2048, .f32⟩ : BufTy).Contents (Elt F) → (⟨S64x2048, .f32⟩ : BufTy).Contents (Elt F) → (⟨S64x2048, .f32⟩ : BufTy).Contents (Elt F)),
    unary main_v19 main_v25 (broadcastInDim S64x2048x1 ![0, 1] bcast_S64x2048_S64x2048x1_0_1 : (⟨S64x2048, .f32⟩ : BufTy).Contents (Elt F) → (⟨S64x2048x1, .f32⟩ : BufTy).Contents (Elt F)),
    unary main_v24 main_v26 (broadcastInDim S64x2048x1 ![0, 1] bcast_S64x2048_S64x2048x1_0_1 : (⟨S64x2048, .f32⟩ : BufTy).Contents (Elt F) → (⟨S64x2048x1, .f32⟩ : BufTy).Contents (Elt F)) ]

/-- The last 22 operations: the concatenate, the division by the unit radius, the three layers. -/
abbrev opsB : List (HloOp τ sig (Elt F)) :=
  [ binary main_v25 main_v26 main_v27 ((fun a b => concatenate S64x2048x2 2 [⟨S64x2048x1, a⟩, ⟨S64x2048x1, b⟩] concatenates_S64x2048x1_S64x2048x1_S64x2048x2_d2) : (⟨S64x2048x1, .f32⟩ : BufTy).Contents (Elt F) → (⟨S64x2048x1, .f32⟩ : BufTy).Contents (Elt F) → (⟨S64x2048x2, .f32⟩ : BufTy).Contents (Elt F)),
    nullary main_cst_0 (constant S_ .f32 0x3F800000#32),
    unary main_cst_0 main_v28 (broadcastInDim S64x2048x2 ![] bcast_S_S64x2048x2 : (⟨S_, .f32⟩ : BufTy).Contents (Elt F) → (⟨S64x2048x2, .f32⟩ : BufTy).Contents (Elt F)),
    binary main_v27 main_v28 main_v29 (Host.divf : (⟨S64x2048x2, .f32⟩ : BufTy).Contents (Elt F) → (⟨S64x2048x2, .f32⟩ : BufTy).Contents (Elt F) → (⟨S64x2048x2, .f32⟩ : BufTy).Contents (Elt F)),
    binary main_v29 main_arg3 main_v30 ((fun l r => Host.dotGeneral dot_S64x2048x2_S64x2x256_S64x2048x256_2_1_1_2_0_0 none l r) : (⟨S64x2048x2, .f32⟩ : BufTy).Contents (Elt F) → (⟨S64x2x256, .f32⟩ : BufTy).Contents (Elt F) → (⟨S64x2048x256, .f32⟩ : BufTy).Contents (Elt F)),
    unary main_arg4 main_v31 (broadcastInDim S64x1x256 ![0, 2] bcast_S64x256_S64x1x256_0_2 : (⟨S64x256, .f32⟩ : BufTy).Contents (Elt F) → (⟨S64x1x256, .f32⟩ : BufTy).Contents (Elt F)),
    unary main_v31 main_v32 (broadcastInDim S64x2048x256 ![0, 1, 2] bcast_S64x1x256_S64x2048x256_0_1_2 : (⟨S64x1x256, .f32⟩ : BufTy).Contents (Elt F) → (⟨S64x2048x256, .f32⟩ : BufTy).Contents (Elt F)),
    binary main_v30 main_v32 main_v33 (addf : (⟨S64x2048x256, .f32⟩ : BufTy).Contents (Elt F) → (⟨S64x2048x256, .f32⟩ : BufTy).Contents (Elt F) → (⟨S64x2048x256, .f32⟩ : BufTy).Contents (Elt F)),
    nullary main_cst_1 (constant S_ .f32 0x00000000#32),
    unary main_cst_1 main_v34 (broadcastInDim S64x2048x256 ![] bcast_S_S64x2048x256 : (⟨S_, .f32⟩ : BufTy).Contents (Elt F) → (⟨S64x2048x256, .f32⟩ : BufTy).Contents (Elt F)),
    binary main_v33 main_v34 main_v35 (maximumf : (⟨S64x2048x256, .f32⟩ : BufTy).Contents (Elt F) → (⟨S64x2048x256, .f32⟩ : BufTy).Contents (Elt F) → (⟨S64x2048x256, .f32⟩ : BufTy).Contents (Elt F)),
    binary main_v35 main_arg5 main_v36 ((fun l r => Host.dotGeneral dot_S64x2048x256_S64x256x256_S64x2048x256_2_1_1_2_0_0 none l r) : (⟨S64x2048x256, .f32⟩ : BufTy).Contents (Elt F) → (⟨S64x256x256, .f32⟩ : BufTy).Contents (Elt F) → (⟨S64x2048x256, .f32⟩ : BufTy).Contents (Elt F)),
    unary main_arg6 main_v37 (broadcastInDim S64x1x256 ![0, 2] bcast_S64x256_S64x1x256_0_2 : (⟨S64x256, .f32⟩ : BufTy).Contents (Elt F) → (⟨S64x1x256, .f32⟩ : BufTy).Contents (Elt F)),
    unary main_v37 main_v38 (broadcastInDim S64x2048x256 ![0, 1, 2] bcast_S64x1x256_S64x2048x256_0_1_2 : (⟨S64x1x256, .f32⟩ : BufTy).Contents (Elt F) → (⟨S64x2048x256, .f32⟩ : BufTy).Contents (Elt F)),
    binary main_v36 main_v38 main_v39 (addf : (⟨S64x2048x256, .f32⟩ : BufTy).Contents (Elt F) → (⟨S64x2048x256, .f32⟩ : BufTy).Contents (Elt F) → (⟨S64x2048x256, .f32⟩ : BufTy).Contents (Elt F)),
    nullary main_cst_2 (constant S_ .f32 0x00000000#32),
    unary main_cst_2 main_v40 (broadcastInDim S64x2048x256 ![] bcast_S_S64x2048x256 : (⟨S_, .f32⟩ : BufTy).Contents (Elt F) → (⟨S64x2048x256, .f32⟩ : BufTy).Contents (Elt F)),
    binary main_v39 main_v40 main_v41 (maximumf : (⟨S64x2048x256, .f32⟩ : BufTy).Contents (Elt F) → (⟨S64x2048x256, .f32⟩ : BufTy).Contents (Elt F) → (⟨S64x2048x256, .f32⟩ : BufTy).Contents (Elt F)),
    binary main_v41 main_arg7 main_v42 ((fun l r => Host.dotGeneral dot_S64x2048x256_S64x256x4_S64x2048x4_2_1_1_2_0_0 none l r) : (⟨S64x2048x256, .f32⟩ : BufTy).Contents (Elt F) → (⟨S64x256x4, .f32⟩ : BufTy).Contents (Elt F) → (⟨S64x2048x4, .f32⟩ : BufTy).Contents (Elt F)),
    unary main_arg8 main_v43 (broadcastInDim S64x1x4 ![0, 2] bcast_S64x4_S64x1x4_0_2 : (⟨S64x4, .f32⟩ : BufTy).Contents (Elt F) → (⟨S64x1x4, .f32⟩ : BufTy).Contents (Elt F)),
    unary main_v43 main_v44 (broadcastInDim S64x2048x4 ![0, 1, 2] bcast_S64x1x4_S64x2048x4_0_1_2 : (⟨S64x1x4, .f32⟩ : BufTy).Contents (Elt F) → (⟨S64x2048x4, .f32⟩ : BufTy).Contents (Elt F)),
    binary main_v42 main_v44 main_v45 (addf : (⟨S64x2048x4, .f32⟩ : BufTy).Contents (Elt F) → (⟨S64x2048x4, .f32⟩ : BufTy).Contents (Elt F) → (⟨S64x2048x4, .f32⟩ : BufTy).Contents (Elt F)) ]

theorem ops_cut : (ops : List (HloOp τ sig (Elt F))) = opsA ++ opsB := rfl

/-- After the first stretch: the product's first coordinate, re · x − im · y of the conjugated orientation and the differences. -/
theorem afterA_v25 (V : Valuation τ sig (Elt F)) :
    after opsA V (Proc.devRef .tc main_v25)
      = broadcastInDim S64x2048x1 ![0, 1] bcast_S64x2048_S64x2048x1_0_1
        (subf (mulf (broadcastInDim S64x2048 ![0, 1] bcast_S64x1_S64x2048_0_1 (Stage.oriRe (Stage.conjOri (V (Proc.devRef .tc main_arg2))))) (Stage.diffX (Stage.diff (V (Proc.devRef .tc main_arg0)) (V (Proc.devRef .tc main_arg1)))))
          (mulf (broadcastInDim S64x2048 ![0, 1] bcast_S64x1_S64x2048_0_1 (Stage.oriIm (Stage.conjOri (V (Proc.devRef .tc main_arg2))))) (Stage.diffY (Stage.diff (V (Proc.devRef .tc main_arg0)) (V (Proc.devRef .tc main_arg1)))))) := by
  after_results_simp; rfl

/-- After the first stretch: the product's second coordinate, re · y + x · im. -/
theorem afterA_v26 (V : Valuation τ sig (Elt F)) :
    after opsA V (Proc.devRef .tc main_v26)
      = broadcastInDim S64x2048x1 ![0, 1] bcast_S64x2048_S64x2048x1_0_1
        (addf (mulf (broadcastInDim S64x2048 ![0, 1] bcast_S64x1_S64x2048_0_1 (Stage.oriRe (Stage.conjOri (V (Proc.devRef .tc main_arg2))))) (Stage.diffY (Stage.diff (V (Proc.devRef .tc main_arg0)) (V (Proc.devRef .tc main_arg1)))))
          (mulf (Stage.diffX (Stage.diff (V (Proc.devRef .tc main_arg0)) (V (Proc.devRef .tc main_arg1)))) (broadcastInDim S64x2048 ![0, 1] bcast_S64x1_S64x2048_0_1 (Stage.oriIm (Stage.conjOri (V (Proc.devRef .tc main_arg2))))))) := by
  after_results_simp; rfl

/-- The first stretch writes none of the layers' weights and biases. -/
theorem afterA_arg3 (V : Valuation τ sig (Elt F)) :
    after opsA V (Proc.devRef .tc main_arg3) = V (Proc.devRef .tc main_arg3) := by after_results
theorem afterA_arg4 (V : Valuation τ sig (Elt F)) :
    after opsA V (Proc.devRef .tc main_arg4) = V (Proc.devRef .tc main_arg4) := by after_results
theorem afterA_arg5 (V : Valuation τ sig (Elt F)) :
    after opsA V (Proc.devRef .tc main_arg5) = V (Proc.devRef .tc main_arg5) := by after_results
theorem afterA_arg6 (V : Valuation τ sig (Elt F)) :
    after opsA V (Proc.devRef .tc main_arg6) = V (Proc.devRef .tc main_arg6) := by after_results
theorem afterA_arg7 (V : Valuation τ sig (Elt F)) :
    after opsA V (Proc.devRef .tc main_arg7) = V (Proc.devRef .tc main_arg7) := by after_results
theorem afterA_arg8 (V : Valuation τ sig (Elt F)) :
    after opsA V (Proc.devRef .tc main_arg8) = V (Proc.devRef .tc main_arg8) := by after_results

/-- The second stretch, from any contents `W`: the three layers over the two coordinates side by side, divided by the unit radius. -/
theorem afterB_v45 (W : Valuation τ sig (Elt F)) :
    after opsB W (Proc.devRef .tc main_v45)
      = Stage.layer3 (Stage.layer2 (Stage.layer1
          (Host.divf
            (concatenate S64x2048x2 2 [⟨S64x2048x1, W (Proc.devRef .tc main_v25)⟩, ⟨S64x2048x1, W (Proc.devRef .tc main_v26)⟩]
              concatenates_S64x2048x1_S64x2048x1_S64x2048x2_d2)
            (broadcastInDim S64x2048x2 ![] bcast_S_S64x2048x2 (constant S_ .f32 0x3F800000#32)))
          (W (Proc.devRef .tc main_arg3)) (W (Proc.devRef .tc main_arg4))) (W (Proc.devRef .tc main_arg5)) (W (Proc.devRef .tc main_arg6)))
          (W (Proc.devRef .tc main_arg7)) (W (Proc.devRef .tc main_arg8)) := by
  after_results; rfl

/-- The whole line at the result buffer: the stage chain of the nine arguments. -/
theorem after_v45 (V : Valuation τ sig (Elt F)) :
    after ops V (Proc.devRef .tc main_v45)
      = Stage.result (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) (V (Proc.devRef .tc main_arg8)) := by
  rw [ops_cut, StableHlo.after_append, afterB_v45, afterA_v25, afterA_v26, afterA_arg3, afterA_arg4, afterA_arg5, afterA_arg6,
    afterA_arg7, afterA_arg8]
  rfl

/-! ## The arguments: no operation writes one -/

theorem after_arg0 (V : Valuation τ sig (Elt F)) :
    after ops V (Proc.devRef .tc main_arg0) = V (Proc.devRef .tc main_arg0) := by after_results
theorem after_arg1 (V : Valuation τ sig (Elt F)) :
    after ops V (Proc.devRef .tc main_arg1) = V (Proc.devRef .tc main_arg1) := by after_results
theorem after_arg2 (V : Valuation τ sig (Elt F)) :
    after ops V (Proc.devRef .tc main_arg2) = V (Proc.devRef .tc main_arg2) := by after_results
theorem after_arg3 (V : Valuation τ sig (Elt F)) :
    after ops V (Proc.devRef .tc main_arg3) = V (Proc.devRef .tc main_arg3) := by after_results
theorem after_arg4 (V : Valuation τ sig (Elt F)) :
    after ops V (Proc.devRef .tc main_arg4) = V (Proc.devRef .tc main_arg4) := by after_results
theorem after_arg5 (V : Valuation τ sig (Elt F)) :
    after ops V (Proc.devRef .tc main_arg5) = V (Proc.devRef .tc main_arg5) := by after_results
theorem after_arg6 (V : Valuation τ sig (Elt F)) :
    after ops V (Proc.devRef .tc main_arg6) = V (Proc.devRef .tc main_arg6) := by after_results
theorem after_arg7 (V : Valuation τ sig (Elt F)) :
    after ops V (Proc.devRef .tc main_arg7) = V (Proc.devRef .tc main_arg7) := by after_results
theorem after_arg8 (V : Valuation τ sig (Elt F)) :
    after ops V (Proc.devRef .tc main_arg8) = V (Proc.devRef .tc main_arg8) := by after_results

/-! ## The run -/

/-- On the device, for any float values, from any memory with zero counters: every weakly fair execution of @main
    terminates with the result buffer at the stage chain of the nine arguments' launch contents, and the nine arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
        = Stage.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v45).trans (after_v45 _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _),
      (h c main_arg6).trans (after_arg6 _), (h c main_arg7).trans (after_arg7 _), (h c main_arg8).trans (after_arg8 _)⟩)
    (run_seq scopedRefs_eq scopedSems_eq defs main (fun _ => ops) main_eq (fun _ => ops_sub) m ρ)

end Cert.ReferenceIdeal.RefRun

end
-- ==== Proof.RefValue.lean ====
/-
  The reference's value on the extended reals: its chain of stages is, index by index, the set of posed fields.

  Each stage of the reference is read at one index built from its coordinates. The three batched products are sums over
  the contracted coordinate, field by field; a bias is its field's row whatever the point; the maximum with the zero
  literal is the maximum with 0. The change of frame is read coordinate by coordinate: the orientation's two parts and
  the differences' two coordinates are slices, the conjugate is the product with the constant pair (1, −1), the two
  coordinates of the complex product are the two pieces of a concatenation along the last axis, and the divisor is the
  constant 1. What remains is the algebra cr·1·dx − (ci·(−1))·dy = cr·dx + ci·dy and cr·1·dy + dx·(ci·(−1)) = cr·dy − ci·dx,
  which holds for all extended reals. The layers then agree term by term under their sums.
-/
import proofs.«132800_g18605798326295_fold_wed_c4_331_2_alg».proof.Proof.RefStages
import proofs.«132800_g18605798326295_fold_wed_c4_331_2_alg».proof.Proof.FieldSpec
import Idealize.ShloMosaic.Lib.StackMember
import Idealize.ShloMosaic.Lib.Pipeline.Value
import Idealize.ShloMosaic.Lib.IdealHost
import Idealize.ShloMosaic.Lib.ValueIdx

noncomputable section

open scoped BigOperators

namespace Cert.ReferenceIdeal.RefValue
open Cert.ReferenceIdeal Cert.ReferenceIdeal.Gen Idealize.ShloMosaic Idealize.ShloMosaic.ValueIdx Cert.FieldNet

/-! ## Two broadcasts the stages repeat -/

/-- A per-field row repeated down the points: [64, n] viewed as [64, 1, n], then spread to [64, 2048, n], reads the
    row's entry whatever the point. -/
theorem row_apply {α : Type} {n : Nat} (hn : n ≠ 1) (b : (⟨2, ![64, n]⟩ : Shape).Idx → α)
    (h : (⟨2, ![64, n]⟩ : Shape).BroadcastsInDim ⟨3, ![64, 1, n]⟩ ![0, 2])
    (h' : (⟨3, ![64, 1, n]⟩ : Shape).BroadcastsInDim ⟨3, ![64, 2048, n]⟩ ![0, 1, 2]) (e : Fin 64) (p : Fin 2048) (j : Fin n) :
    broadcastInDim ⟨3, ![64, 2048, n]⟩ ![0, 1, 2] h' (broadcastInDim ⟨3, ![64, 1, n]⟩ ![0, 2] h b) (ix3 e p j) = b (ix2 e j) := by
  refine (broadcastInDim_apply _ h' _ (ix3 e p j) (ix3 e (0 : Fin 1) j) fun a => ?_).trans ?_
  · match a with
    | ⟨0, _⟩ => rfl
    | ⟨1, _⟩ => rfl
    | ⟨2, _⟩ => exact (if_neg hn).symm
  · refine broadcastInDim_apply _ h _ (ix3 e (0 : Fin 1) j) (ix2 e j) fun a => ?_
    match a with
    | ⟨0, _⟩ => rfl
    | ⟨1, _⟩ => exact (if_neg hn).symm

/-- The zero literal spread over any shape reads 0. -/
theorem zero_apply {T : Shape} (h : S_.BroadcastsInDim T ![]) (i : T.Idx) :
    broadcastInDim T ![] h (constant (F := Ideal) S_ .f32 0x00000000#32) i = 0 := by
  rw [broadcastInDim_scalar_apply, constant_apply, Ideal.ofBits_zero_f32]

/-! ## The three batched products -/

/-- First layer's product: field e's points against field e's 2 × 256 weights. -/
theorem dot1_apply (x : FVec Ideal S64x2048x2 .f32) (W : FVec Ideal S64x2x256 .f32) (e : Fin 64) (p : Fin 2048) (j : Fin 256) :
    Host.dotGeneral dot_S64x2048x2_S64x2x256_S64x2048x256_2_1_1_2_0_0 none x W (ix3 e p j)
      = ∑ k : Fin 2, x (ix3 e p k) * W (ix3 e k j) :=
  StackMember.dotGeneral_stack_apply _ none x W e p j

/-- Second layer's product: 256 × 256 weights. -/
theorem dot2_apply (x : FVec Ideal S64x2048x256 .f32) (W : FVec Ideal S64x256x256 .f32) (e : Fin 64) (p : Fin 2048) (j : Fin 256) :
    Host.dotGeneral dot_S64x2048x256_S64x256x256_S64x2048x256_2_1_1_2_0_0 none x W (ix3 e p j)
      = ∑ k : Fin 256, x (ix3 e p k) * W (ix3 e k j) :=
  StackMember.dotGeneral_stack_apply _ none x W e p j

/-- Third layer's product: 256 × 4 weights. -/
theorem dot3_apply (x : FVec Ideal S64x2048x256 .f32) (W : FVec Ideal S64x256x4 .f32) (e : Fin 64) (p : Fin 2048) (j : Fin 4) :
    Host.dotGeneral dot_S64x2048x256_S64x256x4_S64x2048x4_2_1_1_2_0_0 none x W (ix3 e p j)
      = ∑ k : Fin 256, x (ix3 e p k) * W (ix3 e k j) :=
  StackMember.dotGeneral_stack_apply _ none x W e p j

/-! ## The layers at an index -/

/-- Third layer at (e, p, j): the sum over the 256 hidden units plus field e's bias. -/
theorem layer3_apply (x : FVec Ideal S64x2048x256 .f32) (W : FVec Ideal S64x256x4 .f32) (b : FVec Ideal S64x4 .f32)
    (e : Fin 64) (p : Fin 2048) (j : Fin 4) :
    Stage.layer3 x W b (ix3 e p j) = ∑ k : Fin 256, x (ix3 e p k) * W (ix3 e k j) + b (ix2 e j) := by
  unfold Stage.layer3
  rw [addf_apply, dot3_apply, row_apply (by decide)]

/-- Second layer at (e, p, j): the same, then the maximum with 0. -/
theorem layer2_apply (x : FVec Ideal S64x2048x256 .f32) (W : FVec Ideal S64x256x256 .f32) (b : FVec Ideal S64x256 .f32)
    (e : Fin 64) (p : Fin 2048) (j : Fin 256) :
    Stage.layer2 x W b (ix3 e p j) = max (∑ k : Fin 256, x (ix3 e p k) * W (ix3 e k j) + b (ix2 e j)) 0 := by
  unfold Stage.layer2
  rw [maximumf_apply, addf_apply, dot2_apply, row_apply (by decide), zero_apply]

/-- First layer at (e, p, j): the sum over the two coordinates plus the bias, then the maximum with 0. -/
theorem layer1_apply (x : FVec Ideal S64x2048x2 .f32) (W : FVec Ideal S64x2x256 .f32) (b : FVec Ideal S64x256 .f32)
    (e : Fin 64) (p : Fin 2048) (j : Fin 256) :
    Stage.layer1 x W b (ix3 e p j) = max (∑ k : Fin 2, x (ix3 e p k) * W (ix3 e k j) + b (ix2 e j)) 0 := by
  unfold Stage.layer1
  rw [maximumf_apply, addf_apply, dot1_apply, row_apply (by decide), zero_apply]

/-! ## The orientation and the differences: a slice, then a shape cast -/

/-- The real part is entry 0 of the pair. -/
theorem oriRe_apply (v : FVec Ideal S64x1x2 .f32) (e : Fin 64) :
    Stage.oriRe v (ix2 e (0 : Fin 1)) = v (ix3 e (0 : Fin 1) (0 : Fin 2)) := by
  unfold Stage.oriRe
  refine (shapeCast_apply _ _ (ix2 e (0 : Fin 1)) (ix3 e (0 : Fin 1) (0 : Fin 1)) ?_).trans ?_
  · rw [Shape.rowMajor_val_three, Shape.rowMajor_val_two]
    show (e.val * 1 + 0) * 1 + 0 = e.val * 1 + 0
    omega
  · refine extractStridedSlice_apply _ _ _ _ (ix3 e (0 : Fin 1) (0 : Fin 2)) fun a => ?_
    match a with
    | ⟨0, _⟩ => show e.val = 0 + e.val; omega
    | ⟨1, _⟩ => rfl
    | ⟨2, _⟩ => rfl

/-- The imaginary part is entry 1 of the pair. -/
theorem oriIm_apply (v : FVec Ideal S64x1x2 .f32) (e : Fin 64) :
    Stage.oriIm v (ix2 e (0 : Fin 1)) = v (ix3 e (0 : Fin 1) (1 : Fin 2)) := by
  unfold Stage.oriIm
  refine (shapeCast_apply _ _ (ix2 e (0 : Fin 1)) (ix3 e (0 : Fin 1) (0 : Fin 1)) ?_).trans ?_
  · rw [Shape.rowMajor_val_three, Shape.rowMajor_val_two]
    show (e.val * 1 + 0) * 1 + 0 = e.val * 1 + 0
    omega
  · refine extractStridedSlice_apply _ _ _ _ (ix3 e (0 : Fin 1) (1 : Fin 2)) fun a => ?_
    match a with
    | ⟨0, _⟩ => show e.val = 0 + e.val; omega
    | ⟨1, _⟩ => rfl
    | ⟨2, _⟩ => rfl

/-- The first coordinate of a point's difference. -/
theorem diffX_apply (v : FVec Ideal S64x2048x2 .f32) (e : Fin 64) (p : Fin 2048) :
    Stage.diffX v (ix2 e p) = v (ix3 e p (0 : Fin 2)) := by
  unfold Stage.diffX
  refine (shapeCast_apply _ _ (ix2 e p) (ix3 e p (0 : Fin 1)) ?_).trans ?_
  · rw [Shape.rowMajor_val_three, Shape.rowMajor_val_two]
    show (e.val * 2048 + p.val) * 1 + 0 = e.val * 2048 + p.val
    omega
  · refine extractStridedSlice_apply _ _ _ _ (ix3 e p (0 : Fin 2)) fun a => ?_
    match a with
    | ⟨0, _⟩ => show e.val = 0 + e.val; omega
    | ⟨1, _⟩ => show p.val = 0 + p.val; omega
    | ⟨2, _⟩ => rfl

/-- The second coordinate of a point's difference. -/
theorem diffY_apply (v : FVec Ideal S64x2048x2 .f32) (e : Fin 64) (p : Fin 2048) :
    Stage.diffY v (ix2 e p) = v (ix3 e p (1 : Fin 2)) := by
  unfold Stage.diffY
  refine (shapeCast_apply _ _ (ix2 e p) (ix3 e p (0 : Fin 1)) ?_).trans ?_
  · rw [Shape.rowMajor_val_three, Shape.rowMajor_val_two]
    show (e.val * 2048 + p.val) * 1 + 0 = e.val * 2048 + p.val
    omega
  · refine extractStridedSlice_apply _ _ _ _ (ix3 e p (1 : Fin 2)) fun a => ?_
    match a with
    | ⟨0, _⟩ => show e.val = 0 + e.val; omega
    | ⟨1, _⟩ => show p.val = 0 + p.val; omega
    | ⟨2, _⟩ => rfl

/-! ## The differences and the conjugated orientation -/

/-- A query point less its field's position, coordinate by coordinate. -/
theorem diff_apply (q : FVec Ideal S64x2048x2 .f32) (pos : FVec Ideal S64x2 .f32) (e : Fin 64) (p : Fin 2048) (k : Fin 2) :
    Stage.diff q pos (ix3 e p k) = q (ix3 e p k) - pos (ix2 e k) := by
  unfold Stage.diff
  rw [subf_apply, row_apply (by decide)]

/-- The conjugated orientation at (e, 0, k): the orientation's entry times entry k of the constant pair. -/
theorem conjOri_apply (ori : FVec Ideal S64x2 .f32) (e : Fin 64) (k : Fin 2) :
    Stage.conjOri ori (ix3 e (0 : Fin 1) k) = ori (ix2 e k) * Ideal.ofBits .f32 (lit0 (S2.rowMajor (ix1 k))) := by
  unfold Stage.conjOri
  refine (broadcastInDim_apply _ _ _ (ix3 e (0 : Fin 1) k) (ix2 e k) fun a => ?_).trans ?_
  · match a with
    | ⟨0, _⟩ => rfl
    | ⟨1, _⟩ => rfl
  · rw [mulf_apply]
    refine congrArg (ori (ix2 e k) * ·) ?_
    refine (broadcastInDim_apply _ _ _ (ix2 e k) (ix2 (0 : Fin 1) k) fun a => ?_).trans ?_
    · match a with
      | ⟨0, _⟩ => rfl
      | ⟨1, _⟩ => rfl
    · refine broadcastInDim_apply _ _ _ (ix2 (0 : Fin 1) k) (ix1 k) fun a => ?_
      match a with
      | ⟨0, _⟩ => rfl

/-- Entry 0 of the constant pair is 1. -/
theorem conjOri_apply_zero (ori : FVec Ideal S64x2 .f32) (e : Fin 64) :
    Stage.conjOri ori (ix3 e (0 : Fin 1) (0 : Fin 2)) = ori (ix2 e (0 : Fin 2)) * 1 := by
  rw [conjOri_apply, show S2.rowMajor (ix1 (0 : Fin 2)) = (⟨0, by decide⟩ : Fin S2.numel) from Fin.ext (Shape.rowMajor_val_one _)]
  exact congrArg (ori (ix2 e (0 : Fin 2)) * ·) ofBits_one

/-- Entry 1 of the constant pair is −1. -/
theorem conjOri_apply_one (ori : FVec Ideal S64x2 .f32) (e : Fin 64) :
    Stage.conjOri ori (ix3 e (0 : Fin 1) (1 : Fin 2)) = ori (ix2 e (1 : Fin 2)) * (-1) := by
  rw [conjOri_apply, show S2.rowMajor (ix1 (1 : Fin 2)) = (⟨1, by decide⟩ : Fin S2.numel) from Fin.ext (Shape.rowMajor_val_one _)]
  exact congrArg (ori (ix2 e (1 : Fin 2)) * ·) ofBits_neg_one

/-! ## The complex product, coordinate by coordinate -/

/-- The unit literal spread over any shape reads 1. -/
theorem one_apply {T : Shape} (h : S_.BroadcastsInDim T ![]) (i : T.Idx) :
    broadcastInDim T ![] h (constant (F := Ideal) S_ .f32 0x3F800000#32) i = 1 := by
  rw [broadcastInDim_scalar_apply, constant_apply, ofBits_one]

/-- One number per field repeated along the points. -/
theorem perField_apply (v : FVec Ideal S64x1 .f32) (e : Fin 64) (p : Fin 2048) :
    broadcastInDim S64x2048 ![0, 1] bcast_S64x1_S64x2048_0_1 v (ix2 e p) = v (ix2 e (0 : Fin 1)) := by
  refine broadcastInDim_apply _ _ _ (ix2 e p) (ix2 e (0 : Fin 1)) fun a => ?_
  match a with
  | ⟨0, _⟩ => rfl
  | ⟨1, _⟩ => rfl

/-- A [64, 2048] array viewed as one column of width one. -/
theorem column_apply (v : FVec Ideal S64x2048 .f32) (e : Fin 64) (p : Fin 2048) :
    broadcastInDim S64x2048x1 ![0, 1] bcast_S64x2048_S64x2048x1_0_1 v (ix3 e p (0 : Fin 1)) = v (ix2 e p) := by
  refine broadcastInDim_apply _ _ _ (ix3 e p (0 : Fin 1)) (ix2 e p) fun a => ?_
  match a with
  | ⟨0, _⟩ => rfl
  | ⟨1, _⟩ => rfl

/-- Coordinate 0 of the product, in the first piece of the concatenation: cr′·dx − ci′·dy, divided by 1. -/
theorem rotated_apply_zero (v8 v10 : FVec Ideal S64x1 .f32) (v12 v14 : FVec Ideal S64x2048 .f32) (e : Fin 64) (p : Fin 2048) :
    Stage.rotated v8 v10 v12 v14 (ix3 e p (0 : Fin 2))
      = v8 (ix2 e (0 : Fin 1)) * v12 (ix2 e p) - v10 (ix2 e (0 : Fin 1)) * v14 (ix2 e p) := by
  unfold Stage.rotated
  rw [hostDivf_apply, one_apply, div_one']
  refine (concatenate_pair_apply_left (s₁ := S64x2048x1) (s₂ := S64x2048x1) _ _ _ _ (ix3 e p (0 : Fin 2)) rfl (ix3 e p (0 : Fin 1)) fun b => ?_).trans ?_
  · match b with
    | ⟨0, _⟩ => rfl
    | ⟨1, _⟩ => rfl
    | ⟨2, _⟩ => rfl
  · rw [column_apply, subf_apply, mulf_apply, mulf_apply, perField_apply, perField_apply]

/-- Coordinate 1 of the product, in the second piece: cr′·dy + dx·ci′, divided by 1. -/
theorem rotated_apply_one (v8 v10 : FVec Ideal S64x1 .f32) (v12 v14 : FVec Ideal S64x2048 .f32) (e : Fin 64) (p : Fin 2048) :
    Stage.rotated v8 v10 v12 v14 (ix3 e p (1 : Fin 2))
      = v8 (ix2 e (0 : Fin 1)) * v14 (ix2 e p) + v12 (ix2 e p) * v10 (ix2 e (0 : Fin 1)) := by
  unfold Stage.rotated
  rw [hostDivf_apply, one_apply, div_one']
  refine (concatenate_pair_apply_right (s₁ := S64x2048x1) (s₂ := S64x2048x1) _ _ _ _ (ix3 e p (1 : Fin 2)) rfl rfl (ix3 e p (0 : Fin 1)) (fun b hb => ?_) rfl).trans ?_
  · match b, hb with
    | ⟨0, _⟩, _ => rfl
    | ⟨1, _⟩, _ => rfl
    | ⟨2, _⟩, hb => exact absurd rfl hb
  · rw [column_apply, addf_apply, mulf_apply, mulf_apply, perField_apply, perField_apply]

/-! ## The chain against the specification -/

section Chain

variable (q : FVec Ideal S64x2048x2 .f32) (pos ori : FVec Ideal S64x2 .f32) (W0 : FVec Ideal S64x2x256 .f32)
  (b0 : FVec Ideal S64x256 .f32) (W1 : FVec Ideal S64x256x256 .f32) (b1 : FVec Ideal S64x256 .f32)
  (W2 : FVec Ideal S64x256x4 .f32) (b2 : FVec Ideal S64x4 .f32)

/-- The query points in their fields' frames, as the reference computes them. -/
abbrev rot : FVec Ideal S64x2048x2 .f32 :=
  Stage.rotated (Stage.oriRe (Stage.conjOri ori)) (Stage.oriIm (Stage.conjOri ori)) (Stage.diffX (Stage.diff q pos))
    (Stage.diffY (Stage.diff q pos))

/-- They are the specification's: the product with the conjugate, written with (1, −1), is conj(o) · (q − p). -/
theorem rot_eq (e : Fin 64) (p : Fin 2048) (k : Fin 2) :
    rot q pos ori (ix3 e p k)
      = localPt (fun p k => q (ix3 e p k)) (fun k => pos (ix2 e k)) (fun k => ori (ix2 e k)) p k := by
  match k with
  | ⟨0, _⟩ =>
    refine (rotated_apply_zero _ _ _ _ e p).trans ?_
    rw [oriRe_apply, oriIm_apply, diffX_apply, diffY_apply, conjOri_apply_zero, conjOri_apply_one, diff_apply, diff_apply]
    exact conj_re _ _ _ _
  | ⟨1, _⟩ =>
    refine (rotated_apply_one _ _ _ _ e p).trans ?_
    rw [oriRe_apply, oriIm_apply, diffX_apply, diffY_apply, conjOri_apply_zero, conjOri_apply_one, diff_apply, diff_apply]
    exact conj_im _ _ _ _

/-- The first layer over them is the specification's first hidden layer. -/
theorem layer1_eq (e : Fin 64) (p : Fin 2048) (j : Fin 256) :
    Stage.layer1 (rot q pos ori) W0 b0 (ix3 e p j)
      = hidden1 (fun p k => q (ix3 e p k)) (fun k => pos (ix2 e k)) (fun k => ori (ix2 e k))
          (fun k j => W0 (ix3 e k j)) (fun j => b0 (ix2 e j)) p j := by
  refine (layer1_apply _ W0 b0 e p j).trans ?_
  refine congrArg (max · 0) (congrArg (· + b0 (ix2 e j)) (Finset.sum_congr rfl fun k _ => ?_))
  rw [rot_eq]

/-- The second layer over that is the specification's second hidden layer. -/
theorem layer2_eq (e : Fin 64) (p : Fin 2048) (j : Fin 256) :
    Stage.layer2 (Stage.layer1 (rot q pos ori) W0 b0) W1 b1 (ix3 e p j)
      = hidden2 (fun p k => q (ix3 e p k)) (fun k => pos (ix2 e k)) (fun k => ori (ix2 e k))
          (fun k j => W0 (ix3 e k j)) (fun j => b0 (ix2 e j)) (fun k j => W1 (ix3 e k j)) (fun j => b1 (ix2 e j)) p j := by
  refine (layer2_apply _ W1 b1 e p j).trans ?_
  refine congrArg (max · 0) (congrArg (· + b1 (ix2 e j)) (Finset.sum_congr rfl fun k _ => ?_))
  rw [layer1_eq]

end Chain

/-- The reference's chain of stages is, index by index, the specification. -/
theorem result_eq (q : FVec Ideal S64x2048x2 .f32) (pos ori : FVec Ideal S64x2 .f32) (W0 : FVec Ideal S64x2x256 .f32)
    (b0 : FVec Ideal S64x256 .f32) (W1 : FVec Ideal S64x256x256 .f32) (b1 : FVec Ideal S64x256 .f32)
    (W2 : FVec Ideal S64x256x4 .f32) (b2 : FVec Ideal S64x4 .f32) :
    Stage.result (F := Ideal) q pos ori W0 b0 W1 b1 W2 b2 = Cert.FieldNet.fieldSet q pos ori W0 b0 W1 b1 W2 b2 := by
  funext i
  obtain ⟨e, p, j, rfl⟩ : ∃ (e : Fin 64) (p : Fin 2048) (j : Fin 4), i = ix3 e p j := ⟨i 0, i 1, i 2, eq_ix3 i⟩
  rw [fieldSet_apply]
  refine (layer3_apply _ W2 b2 e p j).trans ?_
  refine congrArg (· + b2 (ix2 e j)) (Finset.sum_congr rfl fun k _ => ?_)
  exact congrArg (· * W2 (ix3 e k j)) (layer2_eq q pos ori W0 b0 W1 b1 e p k)

end Cert.ReferenceIdeal.RefValue
end
-- ==== Proof.lean ====
/-
  The certificate of a set of 64 posed neural fields: a kernel that handles one field per grid point — the change to
  the field's frame, conj(o) · (q − p) written out in real coordinates, then a perceptron 2 → 256 → 256 → 4 as three
  matrix products — against the reference, which conjugates the orientation by a product with (1, −1), multiplies the
  complex numbers coordinate by coordinate over all fields at once, divides by the unit radius and applies the layers as
  batched products.

  On the extended reals both compute, at every index (e, p, j), the network of field e at point p (the specification
  `FieldNet.fieldSet`): the kernel because what a grid point writes back is its field's block of that array and the 64
  blocks cover it; the reference because each stage of its chain, read at an index, is the specification's stage, the two
  spellings of the complex product agreeing by identities that hold for every extended real (negation distributes over a
  product; x − (−y) = x + y; a product with 1 and a quotient by 1 change nothing). No entry needs to be finite.

  The frames of the two kernel programs are the generated ones; the reference's frame is its run with the result dropped;
  the idealization rewrote nothing, so `preserves` is trivial.
-/
import proofs.«132800_g18605798326295_fold_wed_c4_331_2_alg».proof.Defs
import proofs.«132800_g18605798326295_fold_wed_c4_331_2_alg».proof.Proof.Gen.Kernel
import proofs.«132800_g18605798326295_fold_wed_c4_331_2_alg».proof.Proof.Gen.Kernel.Skeleton
import proofs.«132800_g18605798326295_fold_wed_c4_331_2_alg».proof.Proof.Gen.Kernel.Launch
import proofs.«132800_g18605798326295_fold_wed_c4_331_2_alg».proof.Proof.Gen.Kernel.Points
import proofs.«132800_g18605798326295_fold_wed_c4_331_2_alg».proof.Proof.Gen.Kernel.Frame
import proofs.«132800_g18605798326295_fold_wed_c4_331_2_alg».proof.Proof.Gen.KernelIdeal
import proofs.«132800_g18605798326295_fold_wed_c4_331_2_alg».proof.Proof.Gen.KernelIdeal.Skeleton
import proofs.«132800_g18605798326295_fold_wed_c4_331_2_alg».proof.Proof.Gen.KernelIdeal.Launch
import proofs.«132800_g18605798326295_fold_wed_c4_331_2_alg».proof.Proof.Gen.KernelIdeal.Points
import proofs.«132800_g18605798326295_fold_wed_c4_331_2_alg».proof.Proof.Gen.KernelIdeal.Frame
import proofs.«132800_g18605798326295_fold_wed_c4_331_2_alg».proof.Proof.Gen.KernelIdeal.Value
import proofs.«132800_g18605798326295_fold_wed_c4_331_2_alg».proof.Proof.Gen.ReferenceIdeal
import proofs.«132800_g18605798326295_fold_wed_c4_331_2_alg».proof.Proof.Gen.Pre_finite_inputs
import proofs.«132800_g18605798326295_fold_wed_c4_331_2_alg».proof.Proof.KernelValue
import proofs.«132800_g18605798326295_fold_wed_c4_331_2_alg».proof.Proof.RefRun
import proofs.«132800_g18605798326295_fold_wed_c4_331_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with the result array at the set of fields over arguments that agree. -/
theorem algebraic : Cert.algebraic_KernelIdeal_ReferenceIdeal := by
  intro m ρ m' ρ' _ hagree
  refine ⟨fun c => Cert.KernelIdeal.FieldValue.target m c, Cert.KernelIdeal.FieldValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact Cert.ReferenceIdeal.RefValue.result_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
